-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  main_v8
-- ==== Kernel.lean ====
abbrev S4x4096x1024 : Shape := ⟨3, ![4, 4096, 1024]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | .local _ .vmem, ⟨5, _⟩ => ⟨S4x256x1024, .f32⟩
  | .local _ .vmem, ⟨6, _⟩ => ⟨S4x256x1, .f32⟩
  | .local _ .vmem, ⟨7, _⟩ => ⟨S4x256x1, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  reduces_S4x256x256_S4x256 : S4x256x256.Reduces [2] S4x256
  shapeCasts_S4x256_S4x256x1 : S4x256.ShapeCasts S4x256x1
  broadcasts_S4x256x1_S4x256x256 : S4x256x1.Broadcasts S4x256x256
  bitsLt_bf16_f32 : FTy.bits .bf16 < FTy.bits .f32
  shapeCasts_S4x256x1024_S4x256x1024 : S4x256x1024.ShapeCasts S4x256x1024
  broadcasts_S4x256x1_S4x256x1024 : S4x256x1.Broadcasts S4x256x1024
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x4096x1024.size a
  hwx0_0 : ∀ i : grid0.Coords, EltTy.bits .f32 = 32 ∨ (Rect.block (s := S4x4096x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1024.size a ≤ S4x4096x1024.size a
  hwx0_1 : ∀ i : grid0.Coords, EltTy.bits .f32 = 32 ∨ (Rect.block (s := S4x4096x1024) S4x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x4096x1024.size a
  hwx0_2 : ∀ i : grid0.Coords, EltTy.bits .f32 = 32 ∨ (Rect.block (s := S4x4096x1024) S4x256x1024.size (cc0_transform_2 i) (hinb0_2 i)).WholeWords (EltTy.packing .f32)

variable [Facts₀]

def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KernelCases.lean ====
/-
  What one grid point leaves behind, as pure functions of what it finds.

  A grid point (i, j) holds query block i and key/value block j, the output block's running contents o and two
  per-row scratch columns: the running maximum m and the running sum of weights l. Its body forms the block's scores
  s = q · vᵀ, the new maximum m' = max m (row max of s), the rescaling a = exp (m - m'), the weights p = exp (s - m'),
  and stores  l' = a * l + row sum of p,  o' = a * o + p · v,  m'.  At the first key block it first resets
  (m, l, o) to (a large negative finite number, 0, 0); at the last it finally divides o' by l'.
  The three cases' stored contents are these step functions of the loaded blocks.
-/
import proofs.«403870_j42253888258616_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Attention.Kernel

open Cert.KernelIdeal Cert.KernelIdeal.Gen

variable {F : FTy → Type} [FloatOps F]

theorem hz3 : (![0, 0, 0] : Fin 3 → Nat) = fun _ => 0 := funext fun a => by fin_cases a <;> rfl

/-- The new running maximum: the old one against the row maxima of this block's scores. -/
def stepM (x0 x1 : Vec F S4x256x1024 .f32) (m : Vec F S4x256x1 .f32) : Vec F S4x256x1 .f32 :=
  k0_pay2 (k0_pay8 x0 x1 m)

/-- The new running sum of weights: the old one rescaled to the new maximum, plus this block's weights. -/
def stepL (x0 x1 : Vec F S4x256x1024 .f32) (m l : Vec F S4x256x1 .f32) : Vec F S4x256x1 .f32 :=
  k0_pay11 x0 x1 m m l

/-- The new running output: the old one rescaled to the new maximum, plus this block's weights times its values. -/
def stepO (x0 x1 o : Vec F S4x256x1024 .f32) (m : Vec F S4x256x1 .f32) : Vec F S4x256x1024 .f32 :=
  k0_pay1 (k0_pay9 x0 x1 m m) (k0_pay12 x0 x1 m) (k0_pay13 o)

/-- The last key block's output: the running output divided by the running sum of weights. -/
def lastO (x0 x1 o : Vec F S4x256x1024 .f32) (m l : Vec F S4x256x1 .f32) : Vec F S4x256x1024 .f32 :=
  k0_pay3 (stepO x0 x1 o m) (stepL x0 x1 m l)

/-! ## A key block that is neither first nor last: one step from what the point before left -/

theorem out_mid (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : ¬cond0_1 i)
    (x0 x1 xo : Vec F S4x256x1024 .f32) (xs0 xs1 : Vec F S4x256x1 .f32) :
    out0_B_2 c i a2 h2 a3 h3 a4 h4 a5 h5 a6 h6 hc0 hc1 x0 x1 xo xs0 xs1 = stepO x0 x1 xo xs0 := by
  unfold out0_B_2
  rw [View.read_writes_eq_canon _ _ _ (cover0_B_2 c i a2 h2 a3 h3 a4 h4 a5 h5 a6 h6 hc0 hc1 x0 x1 xo xs0 xs1)]
  unfold kernelRun0_B
  dsimp only
  sl_unfold_words
  rw [View.canon_unit_zero hz3]
  simp only [View.readAt_eq_ld, h2.read_unread, h3.read_unread, h4.read_unread, h5.read_unread, h6.read_unread, View.ld_unit_zero (S := S4x256x1024) hz3, View.ld_unit_zero (S := S4x256x1) hz3]
  rfl

theorem max_mid (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : ¬cond0_1 i)
    (x0 x1 xo : Vec F S4x256x1024 .f32) (xs0 xs1 : Vec F S4x256x1 .f32) :
    sout0_B_0 c i a2 h2 a3 h3 a4 h4 a5 h5 a6 h6 hc0 hc1 x0 x1 xo xs0 xs1 = stepM x0 x1 xs0 := by
  unfold sout0_B_0
  rw [View.read_writes_eq_canon _ _ _ (scover0_B_0 c i a2 h2 a3 h3 a4 h4 a5 h5 a6 h6 hc0 hc1 x0 x1 xo xs0 xs1)]
  unfold kernelRun0_B
  dsimp only
  sl_unfold_words
  rw [View.canon_unit_zero hz3]
  simp only [View.readAt_eq_ld, h2.read_unread, h3.read_unread, h4.read_unread, h5.read_unread, h6.read_unread, View.ld_unit_zero (S := S4x256x1024) hz3, View.ld_unit_zero (S := S4x256x1) hz3]
  rfl

theorem sum_mid (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : ¬cond0_1 i)
    (x0 x1 xo : Vec F S4x256x1024 .f32) (xs0 xs1 : Vec F S4x256x1 .f32) :
    sout0_B_1 c i a2 h2 a3 h3 a4 h4 a5 h5 a6 h6 hc0 hc1 x0 x1 xo xs0 xs1 = stepL x0 x1 xs0 xs1 := by
  unfold sout0_B_1
  rw [View.read_writes_eq_canon _ _ _ (scover0_B_1 c i a2 h2 a3 h3 a4 h4 a5 h5 a6 h6 hc0 hc1 x0 x1 xo xs0 xs1)]
  unfold kernelRun0_B
  dsimp only
  sl_unfold_words
  rw [View.canon_unit_zero hz3]
  simp only [View.readAt_eq_ld, h2.read_unread, h3.read_unread, h4.read_unread, h5.read_unread, h6.read_unread, View.ld_unit_zero (S := S4x256x1024) hz3, View.ld_unit_zero (S := S4x256x1) hz3]
  rfl

/-! ## The first key block: one step from the reset values -/

theorem out_first (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : cond0_0 i) (hc1 : ¬cond0_1 i)
    (x0 x1 : Vec F S4x256x1024 .f32) :
    out0_A_2 c i a2 h2 a3 h3 a4 h4 a5 h5 a6 h6 hc0 hc1 x0 x1 = stepO x0 x1 k0_pay6 k0_pay4 := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_cons_unit_zero (S := S4x256x1024) hz3]
  simp only [View.readAt_eq_ld, h2.read_unread, h3.read_unread, h4.read_unread, h5.read_unread, h6.read_unread, View.ld_unit_zero (S := S4x256x1024) hz3, View.ld_unit_zero (S := S4x256x1) hz3, View.readCov_unit_zero (S := S4x256x1024) _ hz3, View.readCov_unit_zero (S := S4x256x1) _ hz3]
  rfl

theorem max_first (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : cond0_0 i) (hc1 : ¬cond0_1 i)
    (x0 x1 : Vec F S4x256x1024 .f32) :
    sout0_A_0 c i a2 h2 a3 h3 a4 h4 a5 h5 a6 h6 hc0 hc1 x0 x1 = stepM x0 x1 k0_pay4 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S4x256x1) hz3]
  simp only [View.readAt_eq_ld, h2.read_unread, h3.read_unread, h4.read_unread, h5.read_unread, h6.read_unread, View.ld_unit_zero (S := S4x256x1024) hz3, View.ld_unit_zero (S := S4x256x1) hz3, View.readCov_unit_zero (S := S4x256x1024) _ hz3, View.readCov_unit_zero (S := S4x256x1) _ hz3]
  rfl

theorem sum_first (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : cond0_0 i) (hc1 : ¬cond0_1 i)
    (x0 x1 : Vec F S4x256x1024 .f32) :
    sout0_A_1 c i a2 h2 a3 h3 a4 h4 a5 h5 a6 h6 hc0 hc1 x0 x1 = stepL x0 x1 k0_pay4 k0_pay5 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S4x256x1) hz3]
  simp only [View.readAt_eq_ld, h2.read_unread, h3.read_unread, h4.read_unread, h5.read_unread, h6.read_unread, View.ld_unit_zero (S := S4x256x1024) hz3, View.ld_unit_zero (S := S4x256x1) hz3, View.readCov_unit_zero (S := S4x256x1024) _ hz3, View.readCov_unit_zero (S := S4x256x1) _ hz3]
  rfl

/-! ## The last key block: one step, then the division -/

theorem out_last (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : cond0_1 i)
    (x0 x1 xo : Vec F S4x256x1024 .f32) (xs0 xs1 : Vec F S4x256x1 .f32) :
    out0_C_2 c i a2 h2 a3 h3 a4 h4 a5 h5 a6 h6 hc0 hc1 x0 x1 xo xs0 xs1 = lastO x0 x1 xo xs0 xs1 := by
  unfold out0_C_2
  rw [View.read_writes_eq_canon _ _ _ (cover0_C_2 c i a2 h2 a3 h3 a4 h4 a5 h5 a6 h6 hc0 hc1 x0 x1 xo xs0 xs1)]
  unfold kernelRun0_C
  dsimp only
  sl_unfold_words
  rw [View.canon_cons_unit_zero (S := S4x256x1024) hz3]
  simp only [View.readAt_eq_ld, h2.read_unread, h3.read_unread, h4.read_unread, h5.read_unread, h6.read_unread, View.ld_unit_zero (S := S4x256x1024) hz3, View.ld_unit_zero (S := S4x256x1) hz3, View.readCov_unit_zero (S := S4x256x1024) _ hz3, View.readCov_unit_zero (S := S4x256x1) _ hz3]
  rfl

theorem max_last (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : cond0_1 i)
    (x0 x1 xo : Vec F S4x256x1024 .f32) (xs0 xs1 : Vec F S4x256x1 .f32) :
    sout0_C_0 c i a2 h2 a3 h3 a4 h4 a5 h5 a6 h6 hc0 hc1 x0 x1 xo xs0 xs1 = stepM x0 x1 xs0 := by
  unfold sout0_C_0
  rw [View.read_writes_eq_canon _ _ _ (scover0_C_0 c i a2 h2 a3 h3 a4 h4 a5 h5 a6 h6 hc0 hc1 x0 x1 xo xs0 xs1)]
  unfold kernelRun0_C
  dsimp only
  sl_unfold_words
  rw [View.canon_unit_zero hz3]
  simp only [View.readAt_eq_ld, h2.read_unread, h3.read_unread, h4.read_unread, h5.read_unread, h6.read_unread, View.ld_unit_zero (S := S4x256x1024) hz3, View.ld_unit_zero (S := S4x256x1) hz3]
  rfl

theorem sum_last (c : Dev nD) (i : grid0.Coords) (a2 : Memref sig .tc .vmem S4x256x1024 .f32) (h2 : a2.IsWhole) (a3 : Memref sig .tc .vmem S4x256x1024 .f32) (h3 : a3.IsWhole) (a4 : Memref sig .tc .vmem S4x256x1024 .f32) (h4 : a4.IsWhole) (a5 : Memref sig .tc .vmem S4x256x1 .f32) (h5 : a5.IsWhole) (a6 : Memref sig .tc .vmem S4x256x1 .f32) (h6 : a6.IsWhole) (hc0 : ¬cond0_0 i) (hc1 : cond0_1 i)
    (x0 x1 xo : Vec F S4x256x1024 .f32) (xs0 xs1 : Vec F S4x256x1 .f32) :
    sout0_C_1 c i a2 h2 a3 h3 a4 h4 a5 h5 a6 h6 hc0 hc1 x0 x1 xo xs0 xs1 = stepL x0 x1 xs0 xs1 := by
  unfold sout0_C_1
  rw [View.read_writes_eq_canon _ _ _ (scover0_C_1 c i a2 h2 a3 h3 a4 h4 a5 h5 a6 h6 hc0 hc1 x0 x1 xo xs0 xs1)]
  unfold kernelRun0_C
  dsimp only
  sl_unfold_words
  rw [View.canon_unit_zero hz3]
  simp only [View.readAt_eq_ld, h2.read_unread, h3.read_unread, h4.read_unread, h5.read_unread, h6.read_unread, View.ld_unit_zero (S := S4x256x1024) hz3, View.ld_unit_zero (S := S4x256x1) hz3]
  rfl

end Cert.Attention.Kernel

end
-- ==== Proof.Spec.lean ====
/-
  Dot-product attention without a scale, over the reals: the one function both programs compute.

  For a batch b, a query row r and a feature d, with scores s k = sum over e of q b r e * v b k e
  (the same array v plays keys and values), the result is the softmax-weighted mean of the value
  rows, written as ONE quotient
      (sum over k of exp (s k) * v b k d) / (sum over k of exp (s k)).
  Softmax is invariant under a common shift of the scores, so any running maximum a program subtracts
  before exponentiating cancels between numerator and denominator; the unshifted quotient is the
  canonical form both sides are brought to.

  Keys (and query rows) are visited in 16 blocks of 256: blockIdx j r is position r of block j.
-/
import Idealize.ShloMosaic.PureOps.Ideal
import Idealize.ShloMosaic.Lib.ValueIdx
import Mathlib.Analysis.SpecialFunctions.Exp

noncomputable section

open scoped BigOperators

namespace Cert.Attention

/-- Position r of block j among 4096 rows cut into 16 blocks of 256 (total in j: reduced mod 4096). -/
def blockIdx (j : ℕ) (r : Fin 256) : Fin 4096 := ⟨(j * 256 + r.val) % 4096, Nat.mod_lt _ (by norm_num)⟩

theorem blockIdx_val {j : ℕ} (hj : j < 16) (r : Fin 256) : (blockIdx j r).val = j * 256 + r.val := by
  have := r.isLt
  show (j * 256 + r.val) % 4096 = _
  exact Nat.mod_eq_of_lt (by omega)

/-- The score of key row k for query row r in batch b: the inner product over the 1024 features. -/
def score (q v : Fin 4 → Fin 4096 → Fin 1024 → ℝ) (b : Fin 4) (r k : Fin 4096) : ℝ :=
  ∑ e : Fin 1024, q b r e * v b k e

/-- Attention's result at (b, r, d): the exp-weighted sum of the value column over the sum of the weights. -/
def attn (q v : Fin 4 → Fin 4096 → Fin 1024 → ℝ) (b : Fin 4) (r : Fin 4096) (d : Fin 1024) : ℝ :=
  (∑ k : Fin 4096, Real.exp (score q v b r k) * v b k d) / (∑ k : Fin 4096, Real.exp (score q v b r k))

end Cert.Attention

end
-- ==== Proof.LibOnlineSoftmax.lean ====
/-
  The algebra of a softmax accumulated block by block (an "online" softmax), over the reals and carried to the
  extended reals. General in the block size n; nothing here mentions a particular kernel.

  part s w mu J is the weighted exponential sum over the first J blocks of keys, every score shifted by mu:
      part s w mu J = sum over j < J, k < n of exp (s j k - mu) * w j k.
  Changing the shift from mu to mu' multiplies it by exp (mu - mu') (part_shift), so one step of a running accumulation
      exp (mu - mu') * part s w mu J + (block J's terms at shift mu')
  is part s w mu' (J + 1) (step_coe, and step_coe_one for the plain sum of weights), and the quotient of two parts at
  one shift does not depend on the shift. A running maximum of real scores, started from a real number or (over a
  nonempty family) from bottom, is a real number (exists_real_max_fold, exists_real_fold), so every shift a kernel
  uses on finite inputs is real. coe_sum and sum_coe_mul_coe carry finite real sums into the extended reals.
-/
import Idealize.ShloMosaic.PureOps.Ideal
import Mathlib.Analysis.SpecialFunctions.Exp
import Mathlib.Data.EReal.Basic

noncomputable section

open scoped BigOperators
open Idealize.ShloMosaic

namespace Cert.Attention

/-- The coercion of the reals into the extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of products of real numbers, computed in the extended reals, is the real sum. -/
theorem sum_coe_mul_coe {ι : Type*} (S : Finset ι) (f g : ι → ℝ) :
    ∑ i ∈ S, (f i : EReal) * (g i : EReal) = ((∑ i ∈ S, f i * g i : ℝ) : EReal) := by
  rw [coe_sum]
  exact Finset.sum_congr rfl (fun i _ => (EReal.coe_mul _ _).symm)

/-- The maximum of two real numbers, taken in the extended reals, is their real maximum. -/
theorem coe_max_coe (a b : ℝ) : max (a : EReal) (b : EReal) = ((max a b : ℝ) : EReal) :=
  (EReal.coe_strictMono.monotone.map_max).symm

/-- The maximum of a real number and the running maximum (from bottom) of finitely many reals is a real number. -/
theorem exists_real_max_fold {ι : Type*} (S : Finset ι) (f : ι → ℝ) (μ : ℝ) :
    ∃ r : ℝ, max (μ : EReal) (S.fold max (⊥ : EReal) (fun i => (f i : EReal))) = (r : EReal) := by
  classical
  induction S using Finset.induction_on generalizing μ with
  | empty => exact ⟨μ, by simp⟩
  | insert a S ha ih =>
    obtain ⟨r, hr⟩ := ih (max μ (f a))
    refine ⟨r, ?_⟩
    rw [Finset.fold_insert ha, ← max_assoc, coe_max_coe]
    exact hr

/-- The running maximum (from bottom) of a nonempty finite family of reals is a real number. -/
theorem exists_real_fold {ι : Type*} (S : Finset ι) (hS : S.Nonempty) (f : ι → ℝ) :
    ∃ r : ℝ, S.fold max (⊥ : EReal) (fun i => (f i : EReal)) = (r : EReal) := by
  classical
  obtain ⟨a, ha⟩ := hS
  have key : ∀ T : Finset ι, T = insert a (S.erase a) →
      ∃ r : ℝ, T.fold max (⊥ : EReal) (fun i => (f i : EReal)) = (r : EReal) := by
    rintro T rfl
    rw [Finset.fold_insert (Finset.notMem_erase a S)]
    exact exists_real_max_fold (S.erase a) f (f a)
  exact key S (Finset.insert_erase ha).symm

variable {n : ℕ}

/-- The weighted exponential sum over the first J blocks, at shift mu. -/
def part (s w : ℕ → Fin n → ℝ) (μ : ℝ) (J : ℕ) : ℝ :=
  ∑ j ∈ Finset.range J, ∑ k : Fin n, Real.exp (s j k - μ) * w j k

theorem part_zero (s w : ℕ → Fin n → ℝ) (μ : ℝ) : part s w μ 0 = 0 := by
  simp [part]

/-- One more block: the sum over the first J + 1 blocks is the sum over the first J plus block J's terms. -/
theorem part_succ (s w : ℕ → Fin n → ℝ) (μ : ℝ) (J : ℕ) :
    part s w μ (J + 1) = part s w μ J + ∑ k : Fin n, Real.exp (s J k - μ) * w J k := by
  unfold part
  rw [Finset.sum_range_succ]

/-- Changing the shift from mu to mu' multiplies the sum by exp (mu - mu'). -/
theorem part_shift (s w : ℕ → Fin n → ℝ) (μ μ' : ℝ) (J : ℕ) :
    Real.exp (μ - μ') * part s w μ J = part s w μ' J := by
  unfold part
  rw [Finset.mul_sum]
  refine Finset.sum_congr rfl fun j _ => ?_
  rw [Finset.mul_sum]
  refine Finset.sum_congr rfl fun k _ => ?_
  rw [← mul_assoc, ← Real.exp_add]
  congr 2
  ring

/-- The exponential of a difference of two reals, taken in the extended reals, is the real exponential. -/
theorem exp_coe_sub_coe (a b : ℝ) :
    Ideal.exp ((a : EReal) - (b : EReal)) = ((Real.exp (a - b) : ℝ) : EReal) := by
  rw [← EReal.coe_sub, Ideal.exp_coe]

/-- One step of the accumulation, in the extended reals: rescale what the earlier blocks left and add block J. -/
theorem step_coe (s w : ℕ → Fin n → ℝ) (μ μ' : ℝ) (J : ℕ) :
    Ideal.exp ((μ : EReal) - (μ' : EReal)) * ((part s w μ J : ℝ) : EReal)
        + ∑ k : Fin n, Ideal.exp ((s J k : EReal) - (μ' : EReal)) * ((w J k : ℝ) : EReal)
      = ((part s w μ' (J + 1) : ℝ) : EReal) := by
  simp only [exp_coe_sub_coe]
  rw [sum_coe_mul_coe, ← EReal.coe_mul, ← EReal.coe_add, part_shift, ← part_succ]

/-- The same step for the plain sum of weights (every w = 1, and no factor written). -/
theorem step_coe_one (s : ℕ → Fin n → ℝ) (μ μ' : ℝ) (J : ℕ) :
    Ideal.exp ((μ : EReal) - (μ' : EReal)) * ((part s (fun _ _ => 1) μ J : ℝ) : EReal)
        + ∑ k : Fin n, Ideal.exp ((s J k : EReal) - (μ' : EReal))
      = ((part s (fun _ _ => 1) μ' (J + 1) : ℝ) : EReal) := by
  have h := step_coe s (fun _ _ => 1) μ μ' J
  simp only [EReal.coe_one, mul_one] at h
  exact h

end Cert.Attention

end
-- ==== Proof.SoftmaxAlgebra.lean ====
/-
  The block-by-block softmax algebra at this kernel's sizes: 4096 keys visited as 16 blocks of 256. After all 16
  blocks the accumulated numerator over the accumulated denominator, at any shift, is the unshifted quotient over all
  4096 keys; and the two-pass form (each weight divided by the sum of all weights, then the weighted sum) is the same
  quotient at any real shift.
-/
import proofs.«403870_j42253888258616_3_alg».proof.Proof.Spec
import proofs.«403870_j42253888258616_3_alg».proof.Proof.LibOnlineSoftmax

noncomputable section

open scoped BigOperators
open Idealize.ShloMosaic

namespace Cert.Attention

/-- Summing over 16 blocks of 256 positions visits each of the 4096 positions once. -/
private theorem sum_blocks (F : Fin 4096 → ℝ) :
    ∑ j ∈ Finset.range 16, ∑ k : Fin 256, F (blockIdx j k) = ∑ k : Fin 4096, F k := by
  rw [← Fin.sum_univ_eq_sum_range (fun j => ∑ k : Fin 256, F (blockIdx j k)) 16,
    ← Fintype.sum_prod_type']
  have hbij : Function.Bijective (fun x : Fin 16 × Fin 256 => blockIdx x.1.val x.2) := by
    rw [Fintype.bijective_iff_injective_and_card]
    constructor
    · rintro ⟨j, r⟩ ⟨j', r'⟩ h
      have h1 := congrArg Fin.val h
      simp only [blockIdx_val j.isLt, blockIdx_val j'.isLt] at h1
      have hr := r.isLt
      have hr' := r'.isLt
      have hj : j = j' := Fin.ext (by omega)
      have hrr : r = r' := Fin.ext (by omega)
      rw [hj, hrr]
    · simp
  exact Fintype.sum_bijective _ hbij _ _ (fun _ => rfl)

/-- The sum of the exponentials of 4096 reals is positive. -/
private theorem sum_exp_pos (S : Fin 4096 → ℝ) : 0 < ∑ k : Fin 4096, Real.exp (S k) :=
  Finset.sum_pos (fun k _ => Real.exp_pos _) Finset.univ_nonempty

/-- After all 16 blocks of 256 keys, the accumulated numerator over the accumulated denominator, at ANY shift, is the
    unshifted quotient over all 4096 keys. -/
theorem div_coe_part (S W : Fin 4096 → ℝ) (μ : ℝ) :
    Ideal.div ((part (fun j k => S (blockIdx j k)) (fun j k => W (blockIdx j k)) μ 16 : ℝ) : EReal)
        ((part (fun j k => S (blockIdx j k)) (fun _ _ => 1) μ 16 : ℝ) : EReal)
      = (((∑ k : Fin 4096, Real.exp (S k) * W k) / (∑ k : Fin 4096, Real.exp (S k)) : ℝ) : EReal) := by
  have hN0 : part (fun j k => S (blockIdx j k)) (fun j k => W (blockIdx j k)) 0 16
      = ∑ k : Fin 4096, Real.exp (S k) * W k := by
    unfold part
    simp only [sub_zero]
    exact sum_blocks (fun k => Real.exp (S k) * W k)
  have hD0 : part (fun j k => S (blockIdx j k)) (fun _ _ => 1) 0 16 = ∑ k : Fin 4096, Real.exp (S k) := by
    unfold part
    simp only [sub_zero, mul_one]
    exact sum_blocks (fun k => Real.exp (S k))
  have hN := part_shift (fun j k => S (blockIdx j k)) (fun j k => W (blockIdx j k)) 0 μ 16
  have hD := part_shift (fun j k => S (blockIdx j k)) (fun _ _ => 1) 0 μ 16
  rw [hN0] at hN
  rw [hD0] at hD
  have hc : 0 < Real.exp (0 - μ) := Real.exp_pos _
  have hpos := sum_exp_pos S
  have hne : part (fun j k => S (blockIdx j k)) (fun _ _ => 1) μ 16 ≠ 0 := by
    rw [← hD]
    exact (mul_pos hc hpos).ne'
  rw [Ideal.div_coe hne, ← EReal.coe_mul, ← hN, ← hD, mul_one_div, mul_div_mul_left _ _ hc.ne']

/-- The two-pass form: each weight exp (S k - M) divided by the sum of all weights (started from zero), then the weighted
    sum of W; at any real shift M it is the same unshifted quotient. -/
theorem softmax_dot_coe (S W : Fin 4096 → ℝ) (M : ℝ) :
    ∑ k : Fin 4096, Ideal.div (Ideal.exp ((S k : EReal) - (M : EReal)))
        ((0 : EReal) + ∑ j : Fin 4096, Ideal.exp ((S j : EReal) - (M : EReal))) * ((W k : ℝ) : EReal)
      = (((∑ k : Fin 4096, Real.exp (S k) * W k) / (∑ k : Fin 4096, Real.exp (S k)) : ℝ) : EReal) := by
  have hexp : ∀ x : ℝ, Real.exp (x - M) = Real.exp (-M) * Real.exp x := fun x => by
    rw [← Real.exp_add]
    congr 1
    ring
  have hc : 0 < Real.exp (-M) := Real.exp_pos _
  have hpos := sum_exp_pos S
  have hD : ∑ j : Fin 4096, Real.exp (S j - M) = Real.exp (-M) * ∑ k : Fin 4096, Real.exp (S k) := by
    rw [Finset.mul_sum]
    exact Finset.sum_congr rfl (fun j _ => hexp (S j))
  have hne : ∑ j : Fin 4096, Real.exp (S j - M) ≠ 0 := by
    rw [hD]
    exact (mul_pos hc hpos).ne'
  simp only [exp_coe_sub_coe, zero_add]
  rw [← coe_sum]
  simp only [Ideal.div_coe hne, ← EReal.coe_mul]
  rw [← coe_sum]
  congr 1
  rw [hD, Finset.sum_div]
  refine Finset.sum_congr rfl fun k _ => ?_
  rw [hexp (S k)]
  field_simp

end Cert.Attention

end
-- ==== Proof.KernelStep.lean ====
/-
  One grid point's arithmetic, element by element, over the extended reals.

  With q the query block, v the key/value block, m, l the per-row running maximum and running sum of weights and o the
  running output, at batch b, row r:
      s k   = sum over e of q (b, r, e) * v (b, k, e)                         (the block's scores)
      m'    = max m (max over k of s k)                                        (from bottom)
      l'    = exp (m - m') * l + sum over k of exp (s k - m')
      o' d  = exp (m - m') * o d + sum over k of exp (s k - m') * v (b, k, d)
  and the last block's quotient o' d / l'. A change of float format is the identity here.
-/
import proofs.«403870_j42253888258616_3_alg».proof.Proof.KernelCases
import proofs.«403870_j42253888258616_3_alg».proof.Proof.SoftmaxAlgebra
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.Attention.Kernel

open Cert.KernelIdeal Cert.KernelIdeal.Gen

/-! ## The two matrix products' operand indices -/

theorem qk_lhs_0 (i : S4x256x256.Idx) (c : dot_S4x256x1024_S4x256x1024_S4x256x256_2_2_1_1_0_0.contr.Idx) : (dot_S4x256x1024_S4x256x1024_S4x256x256_2_2_1_1_0_0.lhsIdx i c 0).val = (i 0).val := by
  unfold DotDims.lhsIdx
  rw [dif_pos (show (0 : Fin S4x256x1024.rank) ∈ dot_S4x256x1024_S4x256x1024_S4x256x256_2_2_1_1_0_0.lhsBatch by decide)]
  rfl
theorem qk_lhs_1 (i : S4x256x256.Idx) (c : dot_S4x256x1024_S4x256x1024_S4x256x256_2_2_1_1_0_0.contr.Idx) : (dot_S4x256x1024_S4x256x1024_S4x256x256_2_2_1_1_0_0.lhsIdx i c 1).val = (i 1).val := by
  unfold DotDims.lhsIdx
  rw [dif_neg (show ¬(1 : Fin S4x256x1024.rank) ∈ dot_S4x256x1024_S4x256x1024_S4x256x256_2_2_1_1_0_0.lhsBatch by decide), dif_pos (show (1 : Fin S4x256x1024.rank) ∈ dot_S4x256x1024_S4x256x1024_S4x256x256_2_2_1_1_0_0.lhsNonContracting by decide)]
  rfl
theorem qk_lhs_2 (i : S4x256x256.Idx) (c : dot_S4x256x1024_S4x256x1024_S4x256x256_2_2_1_1_0_0.contr.Idx) : (dot_S4x256x1024_S4x256x1024_S4x256x256_2_2_1_1_0_0.lhsIdx i c 2).val = (c ⟨0, by decide⟩).val :=
  dot_S4x256x1024_S4x256x1024_S4x256x256_2_2_1_1_0_0.lhsIdx_val_of_single rfl i c
theorem qk_rhs_0 (i : S4x256x256.Idx) (c : dot_S4x256x1024_S4x256x1024_S4x256x256_2_2_1_1_0_0.contr.Idx) : (dot_S4x256x1024_S4x256x1024_S4x256x256_2_2_1_1_0_0.rhsIdx i c 0).val = (i 0).val := by
  unfold DotDims.rhsIdx
  rw [dif_pos (show (0 : Fin S4x256x1024.rank) ∈ dot_S4x256x1024_S4x256x1024_S4x256x256_2_2_1_1_0_0.rhsBatch by decide)]
  rfl
theorem qk_rhs_1 (i : S4x256x256.Idx) (c : dot_S4x256x1024_S4x256x1024_S4x256x256_2_2_1_1_0_0.contr.Idx) : (dot_S4x256x1024_S4x256x1024_S4x256x256_2_2_1_1_0_0.rhsIdx i c 1).val = (i 2).val := by
  unfold DotDims.rhsIdx
  rw [dif_neg (show ¬(1 : Fin S4x256x1024.rank) ∈ dot_S4x256x1024_S4x256x1024_S4x256x256_2_2_1_1_0_0.rhsBatch by decide), dif_pos (show (1 : Fin S4x256x1024.rank) ∈ dot_S4x256x1024_S4x256x1024_S4x256x256_2_2_1_1_0_0.rhsNonContracting by decide)]
  rfl
theorem qk_rhs_2 (i : S4x256x256.Idx) (c : dot_S4x256x1024_S4x256x1024_S4x256x256_2_2_1_1_0_0.contr.Idx) : (dot_S4x256x1024_S4x256x1024_S4x256x256_2_2_1_1_0_0.rhsIdx i c 2).val = (c ⟨0, by decide⟩).val :=
  dot_S4x256x1024_S4x256x1024_S4x256x256_2_2_1_1_0_0.rhsIdx_val_of_single rfl i c

theorem pv_lhs_0 (i : S4x256x1024.Idx) (c : dot_S4x256x256_S4x256x1024_S4x256x1024_2_1_1_2_0_0.contr.Idx) : (dot_S4x256x256_S4x256x1024_S4x256x1024_2_1_1_2_0_0.lhsIdx i c 0).val = (i 0).val := by
  unfold DotDims.lhsIdx
  rw [dif_pos (show (0 : Fin S4x256x256.rank) ∈ dot_S4x256x256_S4x256x1024_S4x256x1024_2_1_1_2_0_0.lhsBatch by decide)]
  rfl
theorem pv_lhs_1 (i : S4x256x1024.Idx) (c : dot_S4x256x256_S4x256x1024_S4x256x1024_2_1_1_2_0_0.contr.Idx) : (dot_S4x256x256_S4x256x1024_S4x256x1024_2_1_1_2_0_0.lhsIdx i c 1).val = (i 1).val := by
  unfold DotDims.lhsIdx
  rw [dif_neg (show ¬(1 : Fin S4x256x256.rank) ∈ dot_S4x256x256_S4x256x1024_S4x256x1024_2_1_1_2_0_0.lhsBatch by decide), dif_pos (show (1 : Fin S4x256x256.rank) ∈ dot_S4x256x256_S4x256x1024_S4x256x1024_2_1_1_2_0_0.lhsNonContracting by decide)]
  rfl
theorem pv_lhs_2 (i : S4x256x1024.Idx) (c : dot_S4x256x256_S4x256x1024_S4x256x1024_2_1_1_2_0_0.contr.Idx) : (dot_S4x256x256_S4x256x1024_S4x256x1024_2_1_1_2_0_0.lhsIdx i c 2).val = (c ⟨0, by decide⟩).val :=
  dot_S4x256x256_S4x256x1024_S4x256x1024_2_1_1_2_0_0.lhsIdx_val_of_single rfl i c
theorem pv_rhs_0 (i : S4x256x1024.Idx) (c : dot_S4x256x256_S4x256x1024_S4x256x1024_2_1_1_2_0_0.contr.Idx) : (dot_S4x256x256_S4x256x1024_S4x256x1024_2_1_1_2_0_0.rhsIdx i c 0).val = (i 0).val := by
  unfold DotDims.rhsIdx
  rw [dif_pos (show (0 : Fin S4x256x1024.rank) ∈ dot_S4x256x256_S4x256x1024_S4x256x1024_2_1_1_2_0_0.rhsBatch by decide)]
  rfl
theorem pv_rhs_1 (i : S4x256x1024.Idx) (c : dot_S4x256x256_S4x256x1024_S4x256x1024_2_1_1_2_0_0.contr.Idx) : (dot_S4x256x256_S4x256x1024_S4x256x1024_2_1_1_2_0_0.rhsIdx i c 1).val = (c ⟨0, by decide⟩).val :=
  dot_S4x256x256_S4x256x1024_S4x256x1024_2_1_1_2_0_0.rhsIdx_val_of_single rfl i c
theorem pv_rhs_2 (i : S4x256x1024.Idx) (c : dot_S4x256x256_S4x256x1024_S4x256x1024_2_1_1_2_0_0.contr.Idx) : (dot_S4x256x256_S4x256x1024_S4x256x1024_2_1_1_2_0_0.rhsIdx i c 2).val = (i 2).val := by
  unfold DotDims.rhsIdx
  rw [dif_neg (show ¬(2 : Fin S4x256x1024.rank) ∈ dot_S4x256x256_S4x256x1024_S4x256x1024_2_1_1_2_0_0.rhsBatch by decide), dif_pos (show (2 : Fin S4x256x1024.rank) ∈ dot_S4x256x256_S4x256x1024_S4x256x1024_2_1_1_2_0_0.rhsNonContracting by decide)]
  rfl

/-! ## The scores -/

/-- The block's score of key k for row r: the inner product of the query row and the key row. -/
theorem scores_apply (x0 x1 : FVec Ideal S4x256x1024 .f32) (b : Fin 4) (r k : Fin 256) :
    k0_pay7 (F := Ideal) x0 x1 (ix3 b r k) = ∑ e : Fin 1024, x0 (ix3 b r e) * x1 (ix3 b k e) := by
  unfold k0_pay7
  simp only [matmul]
  rw [Ideal.matmul_constant_zero_apply, ← Equiv.sum_comp (ValueIdx.contrEquiv1 dot_S4x256x1024_S4x256x1024_S4x256x256_2_2_1_1_0_0 1024 rfl rfl).symm]
  refine Finset.sum_congr rfl fun e _ => ?_
  have he := ValueIdx.contrEquiv1_symm_val dot_S4x256x1024_S4x256x1024_S4x256x256_2_2_1_1_0_0 1024 rfl rfl e
  have el : dot_S4x256x1024_S4x256x1024_S4x256x256_2_2_1_1_0_0.lhsIdx (ix3 b r k) ((ValueIdx.contrEquiv1 dot_S4x256x1024_S4x256x1024_S4x256x256_2_2_1_1_0_0 1024 rfl rfl).symm e) = ix3 b r e := funext fun a => Fin.ext (by
    match a with
    | ⟨0, _⟩ => exact qk_lhs_0 _ _
    | ⟨1, _⟩ => exact qk_lhs_1 _ _
    | ⟨2, _⟩ => exact (qk_lhs_2 _ _).trans he)
  have er : dot_S4x256x1024_S4x256x1024_S4x256x256_2_2_1_1_0_0.rhsIdx (ix3 b r k) ((ValueIdx.contrEquiv1 dot_S4x256x1024_S4x256x1024_S4x256x256_2_2_1_1_0_0 1024 rfl rfl).symm e) = ix3 b k e := funext fun a => Fin.ext (by
    match a with
    | ⟨0, _⟩ => exact qk_rhs_0 _ _
    | ⟨1, _⟩ => exact qk_rhs_1 _ _
    | ⟨2, _⟩ => exact (qk_rhs_2 _ _).trans he)
  rw [el, er]

/-! ## Layout: a per-row column [4, 256, 1] against the [4, 256] row maxima and the [4, 256, n] blocks -/

/-- The pattern of negative infinity is the bottom of the extended reals. -/
theorem ofBits_negInf : (FloatOps.ofBits .f32 0xFF800000#32 : Ideal .f32) = (⊥ : EReal) := by
  show Ideal.ofBits .f32 0xFF800000#32 = ⊥
  simp [Ideal.ofBits, Ideal.ieee]

/-- A [4, 256] vector viewed as a [4, 256, 1] column reads (b, r) at (b, r, 0). -/
theorem column_of_rows {α : Type} (x : S4x256.Idx → α) (b : Fin 4) (r : Fin 256) (z : Fin 1) :
    shapeCast S4x256x1 x shapeCasts_S4x256_S4x256x1 (ix3 b r z) = x (ix2 b r) := by
  refine shapeCast_apply x shapeCasts_S4x256_S4x256x1 (ix3 b r z) (ix2 b r) ?_
  rw [Shape.rowMajor_val_two, Shape.rowMajor_val_three]
  have hz : z.val = 0 := by have := z.isLt; omega
  show b.val * 256 + r.val = (b.val * 256 + r.val) * 1 + z.val
  omega

/-- A [4, 256, 1] column broadcast along 256 keys reads (b, r, 0) at (b, r, k). -/
theorem column_to_keys {α : Type} (x : S4x256x1.Idx → α) (b : Fin 4) (r k : Fin 256) :
    broadcastTo S4x256x256 x broadcasts_S4x256x1_S4x256x256 (ix3 b r k) = x (ix3 b r (0 : Fin 1)) := by
  refine broadcastTo_apply x broadcasts_S4x256x1_S4x256x256 (ix3 b r k) (ix3 b r (0 : Fin 1)) fun a => ?_
  match a with
  | ⟨0, _⟩ => show b.val = if (4 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else k.val; rw [if_pos rfl]

/-- A [4, 256, 1] column broadcast along 1024 features reads (b, r, 0) at (b, r, d). -/
theorem column_to_features {α : Type} (x : S4x256x1.Idx → α) (b : Fin 4) (r : Fin 256) (d : Fin 1024) :
    broadcastTo S4x256x1024 x broadcasts_S4x256x1_S4x256x1024 (ix3 b r d) = x (ix3 b r (0 : Fin 1)) := by
  refine broadcastTo_apply x broadcasts_S4x256x1_S4x256x1024 (ix3 b r d) (ix3 b r (0 : Fin 1)) fun a => ?_
  match a with
  | ⟨0, _⟩ => show b.val = if (4 : Nat) = 1 then 0 else b.val; rw [if_neg (by decide)]
  | ⟨1, _⟩ => show r.val = if (256 : Nat) = 1 then 0 else r.val; rw [if_neg (by decide)]
  | ⟨2, _⟩ => show 0 = if (1 : Nat) = 1 then 0 else d.val; rw [if_pos rfl]

/-! ## The new maximum, the rescaling and the weights -/

/-- The new running maximum at row r: the old one against the greatest of the block's 256 scores (from bottom). -/
theorem newmax_apply (x0 x1 : FVec Ideal S4x256x1024 .f32) (m : FVec Ideal S4x256x1 .f32) (b : Fin 4) (r : Fin 256) (z : Fin 1) :
    k0_pay8 (F := Ideal) x0 x1 m (ix3 b r z)
      = max (m (ix3 b r z)) ((Finset.univ : Finset (Fin 256)).fold max (⊥ : EReal) (fun k => k0_pay7 (F := Ideal) x0 x1 (ix3 b r k))) := by
  unfold k0_pay8
  show max (m (ix3 b r z)) (shapeCast S4x256x1 (multiReduction .maximumf [2] S4x256 (k0_pay7 (F := Ideal) x0 x1) 0xFF800000#32 reduces_S4x256x256_S4x256 (.inl rfl) rfl) shapeCasts_S4x256_S4x256x1 (ix3 b r z)) = _
  rw [column_of_rows]
  refine congrArg (max (m (ix3 b r z))) ?_
  refine (Ideal.multiReduction_maximumf_single (k0_pay7 (F := Ideal) x0 x1) 0xFF800000#32 reduces_S4x256x256_S4x256 (.inl rfl) rfl (ix2 b r)).trans ?_
  rw [ofBits_negInf]
  refine congrArg (fun f => Finset.fold max (⊥ : EReal) f (Finset.univ : Finset (Fin 256))) ?_
  refine funext fun (k : Fin 256) => ?_
  show k0_pay7 (F := Ideal) x0 x1 (reduces_S4x256x256_S4x256.lift (ix2 b r) k) = _
  exact congrArg (k0_pay7 (F := Ideal) x0 x1) (funext fun a => Fin.ext (by
    match a with | ⟨0, _⟩ => rfl | ⟨1, _⟩ => rfl | ⟨2, _⟩ => rfl))

/-- The rescaling of what the earlier blocks left: exp (old maximum - new maximum). -/
theorem rescale_apply (x0 x1 : FVec Ideal S4x256x1024 .f32) (m m' : FVec Ideal S4x256x1 .f32) (i : S4x256x1.Idx) :
    k0_pay9 (F := Ideal) x0 x1 m m' i = Ideal.exp (m' i - k0_pay8 (F := Ideal) x0 x1 m i) := rfl

/-- The weight of key k for row r: exp (score - new maximum). -/
theorem weight_apply (x0 x1 : FVec Ideal S4x256x1024 .f32) (m : FVec Ideal S4x256x1 .f32) (b : Fin 4) (r k : Fin 256) :
    k0_pay10 (F := Ideal) x0 x1 m (ix3 b r k)
      = Ideal.exp (k0_pay7 (F := Ideal) x0 x1 (ix3 b r k) - k0_pay8 (F := Ideal) x0 x1 m (ix3 b r (0 : Fin 1))) := by
  unfold k0_pay10
  show Ideal.exp (k0_pay7 (F := Ideal) x0 x1 (ix3 b r k)
    - broadcastTo S4x256x256 (k0_pay8 (F := Ideal) x0 x1 m) broadcasts_S4x256x1_S4x256x256 (ix3 b r k)) = _
  rw [column_to_keys]

/-- The new running sum of weights at row r. -/
theorem newsum_apply (x0 x1 : FVec Ideal S4x256x1024 .f32) (m m' l : FVec Ideal S4x256x1 .f32) (b : Fin 4) (r : Fin 256) (z : Fin 1) :
    k0_pay11 (F := Ideal) x0 x1 m m' l (ix3 b r z)
      = k0_pay9 (F := Ideal) x0 x1 m m' (ix3 b r z) * l (ix3 b r z) + ∑ k : Fin 256, k0_pay10 (F := Ideal) x0 x1 m (ix3 b r k) := by
  unfold k0_pay11
  show shapeCast S4x256x1 (addf (mulf (k0_pay9 (F := Ideal) x0 x1 m m') l)
      (shapeCast S4x256x1 (multiReduction .add [2] S4x256 (k0_pay10 (F := Ideal) x0 x1 m) 0x00000000#32 reduces_S4x256x256_S4x256 (.inl rfl) rfl) shapeCasts_S4x256_S4x256x1))
      shapeCasts_S4x256x1_S4x256x1 (ix3 b r z) = _
  rw [shapeCast_self]
  show k0_pay9 (F := Ideal) x0 x1 m m' (ix3 b r z) * l (ix3 b r z)
      + shapeCast S4x256x1 (multiReduction .add [2] S4x256 (k0_pay10 (F := Ideal) x0 x1 m) 0x00000000#32 reduces_S4x256x256_S4x256 (.inl rfl) rfl) shapeCasts_S4x256_S4x256x1 (ix3 b r z) = _
  rw [column_of_rows]
  refine congrArg (k0_pay9 (F := Ideal) x0 x1 m m' (ix3 b r z) * l (ix3 b r z) + ·) ?_
  refine (Ideal.multiReduction_add_single (k0_pay10 (F := Ideal) x0 x1 m) 0x00000000#32 reduces_S4x256x256_S4x256 (.inl rfl) rfl (ix2 b r)).trans ?_
  refine Finset.sum_congr rfl fun (k : Fin 256) _ => ?_
  exact congrArg (k0_pay10 (F := Ideal) x0 x1 m) (funext fun a => Fin.ext (by
    match a with | ⟨0, _⟩ => rfl | ⟨1, _⟩ => rfl | ⟨2, _⟩ => rfl))

/-- The block's weights times its values, at (b, r, d): the sum over the block's keys. -/
theorem weighted_values_apply (x0 x1 : FVec Ideal S4x256x1024 .f32) (m : FVec Ideal S4x256x1 .f32) (b : Fin 4) (r : Fin 256) (d : Fin 1024) :
    k0_pay12 (F := Ideal) x0 x1 m (ix3 b r d) = ∑ k : Fin 256, k0_pay10 (F := Ideal) x0 x1 m (ix3 b r k) * x1 (ix3 b k d) := by
  unfold k0_pay12
  simp only [matmul]
  rw [Ideal.matmul_constant_zero_apply, ← Equiv.sum_comp (ValueIdx.contrEquiv1 dot_S4x256x256_S4x256x1024_S4x256x1024_2_1_1_2_0_0 256 rfl rfl).symm]
  refine Finset.sum_congr rfl fun k _ => ?_
  have hk := ValueIdx.contrEquiv1_symm_val dot_S4x256x256_S4x256x1024_S4x256x1024_2_1_1_2_0_0 256 rfl rfl k
  have el : dot_S4x256x256_S4x256x1024_S4x256x1024_2_1_1_2_0_0.lhsIdx (ix3 b r d) ((ValueIdx.contrEquiv1 dot_S4x256x256_S4x256x1024_S4x256x1024_2_1_1_2_0_0 256 rfl rfl).symm k) = ix3 b r k := funext fun a => Fin.ext (by
    match a with
    | ⟨0, _⟩ => exact pv_lhs_0 _ _
    | ⟨1, _⟩ => exact pv_lhs_1 _ _
    | ⟨2, _⟩ => exact (pv_lhs_2 _ _).trans hk)
  have er : dot_S4x256x256_S4x256x1024_S4x256x1024_2_1_1_2_0_0.rhsIdx (ix3 b r d) ((ValueIdx.contrEquiv1 dot_S4x256x256_S4x256x1024_S4x256x1024_2_1_1_2_0_0 256 rfl rfl).symm k) = ix3 b k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]
  rfl

/-- The new running output at (b, r, d): the old one rescaled, plus the block's weighted values. -/
theorem newout_apply (a : FVec Ideal S4x256x1 .f32) (pv o : FVec Ideal S4x256x1024 .f32) (b : Fin 4) (r : Fin 256) (d : Fin 1024) :
    k0_pay1 (F := Ideal) a pv o (ix3 b r d) = a (ix3 b r (0 : Fin 1)) * o (ix3 b r d) + pv (ix3 b r d) := by
  unfold k0_pay1
  show broadcastTo S4x256x1024 a broadcasts_S4x256x1_S4x256x1024 (ix3 b r d) * o (ix3 b r d) + pv (ix3 b r d) = _
  rw [column_to_features]

/-- The last block's quotient at (b, r, d): the running output over the running sum of weights. -/
theorem quotient_apply (o : FVec Ideal S4x256x1024 .f32) (l : FVec Ideal S4x256x1 .f32) (b : Fin 4) (r : Fin 256) (d : Fin 1024) :
    k0_pay3 (F := Ideal) o l (ix3 b r d) = Ideal.div (o (ix3 b r d)) (l (ix3 b r (0 : Fin 1))) := by
  unfold k0_pay3
  rw [shapeCast_self]
  show Ideal.div (o (ix3 b r d)) (broadcastTo S4x256x1024 l broadcasts_S4x256x1_S4x256x1024 (ix3 b r d)) = _
  rw [column_to_features]

theorem keep_column (x : FVec Ideal S4x256x1 .f32) : k0_pay2 (F := Ideal) x = x := by
  unfold k0_pay2; exact shapeCast_self _ _

theorem keep_block (x : FVec Ideal S4x256x1024 .f32) : k0_pay13 (F := Ideal) x = x := by
  unfold k0_pay13; exact shapeCast_self _ _

/-! ## The reset values -/

theorem reset_max_apply (i : S4x256x1.Idx) : (k0_pay4 (F := Ideal)) i = Ideal.ofBits .f32 0xFF333332#32 := by
  unfold k0_pay4; rw [shapeCast_self]; rfl

theorem reset_sum_apply (i : S4x256x1.Idx) : (k0_pay5 (F := Ideal)) i = 0 := by
  unfold k0_pay5; rw [shapeCast_self]; exact Ideal.ofBits_zero_f32

theorem reset_out_apply (i : S4x256x1024.Idx) : (k0_pay6 (F := Ideal)) i = 0 := by
  unfold k0_pay6; exact Ideal.ofBits_zero_f32

/-- The reset value of the running maximum is a (very negative) real number. -/
theorem reset_max_real : ∃ ν : ℝ, Ideal.ofBits .f32 0xFF333332#32 = (ν : EReal) := by
  show ∃ ν : ℝ, Ideal.ieee 8 23 (0xFF333332#32 : BitVec 32) = (ν : EReal)
  unfold Ideal.ieee
  dsimp only
  rw [if_neg (by decide), if_neg (by decide)]
  exact ⟨_, rfl⟩

/-! ## One step on real data

Row r of batch b has seen J blocks: its running maximum is a real number mu, its running sum of weights is
part s 1 mu J and its running output at feature d is part s (w d) mu J, where s j k is the score of key k of block j
and w d j k that key's value at d. The step with block J (scores s J, values w d J) leaves the same three with J + 1
and a new real maximum. -/

open Cert.Attention in
theorem step_values (x0 x1 o : FVec Ideal S4x256x1024 .f32) (m l : FVec Ideal S4x256x1 .f32) (b : Fin 4) (r : Fin 256)
    (s : ℕ → Fin 256 → ℝ) (w : Fin 1024 → ℕ → Fin 256 → ℝ) (J : ℕ) (μ : ℝ)
    (hs : ∀ k : Fin 256, k0_pay7 (F := Ideal) x0 x1 (ix3 b r k) = ((s J k : ℝ) : EReal))
    (hw : ∀ (k : Fin 256) (d : Fin 1024), x1 (ix3 b k d) = ((w d J k : ℝ) : EReal))
    (hm : m (ix3 b r (0 : Fin 1)) = ((μ : ℝ) : EReal))
    (hl : l (ix3 b r (0 : Fin 1)) = ((part s (fun _ _ => 1) μ J : ℝ) : EReal))
    (ho : ∀ d : Fin 1024, o (ix3 b r d) = ((part s (w d) μ J : ℝ) : EReal)) :
    ∃ μ' : ℝ, stepM (F := Ideal) x0 x1 m (ix3 b r (0 : Fin 1)) = ((μ' : ℝ) : EReal)
      ∧ stepL (F := Ideal) x0 x1 m l (ix3 b r (0 : Fin 1)) = ((part s (fun _ _ => 1) μ' (J + 1) : ℝ) : EReal)
      ∧ ∀ d : Fin 1024, stepO (F := Ideal) x0 x1 o m (ix3 b r d) = ((part s (w d) μ' (J + 1) : ℝ) : EReal) := by
  obtain ⟨μ', hμ'⟩ := exists_real_max_fold (Finset.univ : Finset (Fin 256)) (fun k => s J k) μ
  have hmax : k0_pay8 (F := Ideal) x0 x1 m (ix3 b r (0 : Fin 1)) = ((μ' : ℝ) : EReal) := by
    rw [newmax_apply, hm, ← hμ']
    exact congrArg (max ((μ : ℝ) : EReal)) (congrArg (fun f => Finset.fold max (⊥ : EReal) f (Finset.univ : Finset (Fin 256))) (funext hs))
  have hresc : k0_pay9 (F := Ideal) x0 x1 m m (ix3 b r (0 : Fin 1)) = Ideal.exp (((μ : ℝ) : EReal) - ((μ' : ℝ) : EReal)) := by
    rw [rescale_apply, hm, hmax]
  have hwt : ∀ k : Fin 256, k0_pay10 (F := Ideal) x0 x1 m (ix3 b r k) = Ideal.exp (((s J k : ℝ) : EReal) - ((μ' : ℝ) : EReal)) := fun k => by
    rw [weight_apply, hs k, hmax]
  refine ⟨μ', ?_, ?_, fun d => ?_⟩
  · unfold stepM
    rw [keep_column]
    exact hmax
  · unfold stepL
    rw [newsum_apply, hresc, hl, Finset.sum_congr rfl fun k _ => hwt k]
    exact step_coe_one s μ μ' J
  · unfold stepO
    rw [newout_apply, hresc, keep_block, ho d, weighted_values_apply,
      Finset.sum_congr rfl fun k _ => by rw [hwt k, hw k d]]
    exact step_coe s (w d) μ μ' J

/-- The first block's step starts from the reset values: a real maximum, no weight, no output. -/
theorem reset_values (b : Fin 4) (r : Fin 256) (s : ℕ → Fin 256 → ℝ) (w : Fin 1024 → ℕ → Fin 256 → ℝ) :
    ∃ ν : ℝ, (k0_pay4 (F := Ideal)) (ix3 b r (0 : Fin 1)) = ((ν : ℝ) : EReal)
      ∧ (k0_pay5 (F := Ideal)) (ix3 b r (0 : Fin 1)) = ((Cert.Attention.part s (fun _ _ => 1) ν 0 : ℝ) : EReal)
      ∧ ∀ d : Fin 1024, (k0_pay6 (F := Ideal)) (ix3 b r d) = ((Cert.Attention.part s (w d) ν 0 : ℝ) : EReal) := by
  obtain ⟨ν, hν⟩ := reset_max_real
  refine ⟨ν, ?_, ?_, fun d => ?_⟩
  · rw [reset_max_apply, hν]
  · rw [reset_sum_apply, Cert.Attention.part_zero, EReal.coe_zero]
  · rw [reset_out_apply, Cert.Attention.part_zero, EReal.coe_zero]

/-- The last block's quotient at (b, r, d), from its step's two results. -/
theorem last_value (x0 x1 o : FVec Ideal S4x256x1024 .f32) (m l : FVec Ideal S4x256x1 .f32) (b : Fin 4) (r : Fin 256) (d : Fin 1024) :
    lastO (F := Ideal) x0 x1 o m l (ix3 b r d)
      = Ideal.div (stepO (F := Ideal) x0 x1 o m (ix3 b r d)) (stepL (F := Ideal) x0 x1 m l (ix3 b r (0 : Fin 1))) := by
  unfold lastO
  exact quotient_apply _ _ b r d

end Cert.Attention.Kernel

end
-- ==== Proof.KernelBlocks.lean ====
/-
  Which rows a grid point holds. Point t of the 16 x 16 grid is (i, j) = (t / 16, t % 16): its query block is rows
  256 i .. 256 i + 255 of the first argument, its key/value block rows 256 j .. 256 j + 255 of the second, and its
  output block rows 256 i .. of the result; every block spans all 4 batches and all 1024 features.
-/
import proofs.«403870_j42253888258616_3_alg».proof.Proof.Gen.KernelIdeal.Frame
import proofs.«403870_j42253888258616_3_alg».proof.Proof.Spec
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.Attention.Kernel

open Cert.KernelIdeal Cert.KernelIdeal.Gen Cert.Attention

variable {F : FTy → Type} [FloatOps F]
variable (m : (ℓ : Loc nD τ sig) → Buf (Elt F) ℓ)

/-- The query window's block index at point t is (0, t / 16, 0). -/
theorem q_index : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)

/-- The key/value window's block index at point t is (0, t % 16, 0). -/
theorem kv_index : ∀ t : Fin cfg0.N, win0_1.index t 0 = 0 ∧ win0_1.index t 1 = t.val % 16 ∧ win0_1.index t 2 = 0 :=
  (by decide +kernel : ∀ t : Fin grid0.N, win0_1.index t 0 = 0 ∧ win0_1.index t 1 = t.val % 16 ∧ win0_1.index t 2 = 0)

/-- The output window's block index at point t is (0, t / 16, 0). -/
theorem o_index : ∀ t : Fin cfg0.N, win0_2.index t 0 = 0 ∧ win0_2.index t 1 = t.val / 16 ∧ win0_2.index t 2 = 0 :=
  (by decide +kernel : ∀ t : Fin grid0.N, win0_2.index t 0 = 0 ∧ win0_2.index t 1 = t.val / 16 ∧ win0_2.index t 2 = 0)

/-- Row r of the query block at point t is row r of block t / 16 of the first argument. -/
theorem qblk_apply (c : Dev nD) (t : Fin cfg0.N) (b : Fin 4) (r : Fin 256) (e : Fin 1024) :
    (iblk m c 0 t : Vec F S4x256x1024 .f32) (ix3 b r e)
      = m ((c : Thread nD τ).loc main_arg0) (ix3 b (blockIdx (t.val / 16) r) e) := by
  have hN : t.val < 256 := lt_of_lt_of_eq t.isLt (show cfg0.N = 256 from N_0)
  obtain ⟨i0, i1, i2⟩ := q_index t
  unfold iblk
  rw [View.read_apply]
  show V m c main_arg0 _ = m (c.tc.loc main_arg0) _
  unfold V
  congr 1
  funext a
  apply Fin.ext
  match a with
  | ⟨0, _⟩ => show win0_0.index t 0 * 4 + 1 * b.val = b.val; rw [i0]; omega
  | ⟨1, _⟩ =>
    show win0_0.index t 1 * 256 + 1 * r.val = (blockIdx (t.val / 16) r).val
    rw [i1, blockIdx_val (by omega)]; omega
  | ⟨2, _⟩ => show win0_0.index t 2 * 1024 + 1 * e.val = e.val; rw [i2]; omega

/-- Row k of the key/value block at point t is row k of block t % 16 of the second argument. -/
theorem kvblk_apply (c : Dev nD) (t : Fin cfg0.N) (b : Fin 4) (k : Fin 256) (e : Fin 1024) :
    (iblk m c 1 t : Vec F S4x256x1024 .f32) (ix3 b k e)
      = m ((c : Thread nD τ).loc main_arg1) (ix3 b (blockIdx (t.val % 16) k) e) := by
  obtain ⟨i0, i1, i2⟩ := kv_index t
  unfold iblk
  rw [View.read_apply]
  show V m c main_arg1 _ = m (c.tc.loc main_arg1) _
  unfold V
  congr 1
  funext a
  apply Fin.ext
  match a with
  | ⟨0, _⟩ => show win0_1.index t 0 * 4 + 1 * b.val = b.val; rw [i0]; omega
  | ⟨1, _⟩ =>
    show win0_1.index t 1 * 256 + 1 * k.val = (blockIdx (t.val % 16) k).val
    rw [i1, blockIdx_val (by omega)]; omega
  | ⟨2, _⟩ => show win0_1.index t 2 * 1024 + 1 * e.val = e.val; rw [i2]; omega

end Cert.Attention.Kernel

end
-- ==== Proof.KernelInv.lean ====
/-
  The accumulation over the grid. Within query block i the 16 points (i, 0) .. (i, 15) run in order. After point
  (i, j) with j < 15, for every batch b and row r there is a real number mu (the running maximum) such that the
  scratch columns hold mu and the sum over the first j + 1 key blocks of exp (score - mu), and the output block holds
  the sum over those blocks of exp (score - mu) * value: an induction over the points, the first key block starting
  from the reset values. After point (i, 15) the output block holds the quotient of the two sums over all 16 blocks,
  which is attention of the real inputs whatever mu is.
-/
import proofs.«403870_j42253888258616_3_alg».proof.Proof.KernelStep
import proofs.«403870_j42253888258616_3_alg».proof.Proof.KernelBlocks

noncomputable section

open scoped BigOperators
open Idealize.ShloMosaic Idealize.ShloMosaic.TcCoe Idealize.ShloMosaic.ValueIdx Idealize.SL.Sem

namespace Cert.Attention.Kernel

open Cert.KernelIdeal Cert.KernelIdeal.Gen Cert.Attention

variable (m : (ℓ : Loc nD τ sig) → Buf (Elt Ideal) ℓ)
variable (q v : Fin 4 → Fin 4096 → Fin 1024 → ℝ)

/-- The scores of row r of query block i against key k of block j. -/
def sOf (i : ℕ) (b : Fin 4) (r : Fin 256) : ℕ → Fin 256 → ℝ :=
  fun j k => (fun kk : Fin 4096 => score q v b (blockIdx i r) kk) (blockIdx j k)

/-- The value at feature d of key k of block j. -/
def wOf (b : Fin 4) (d : Fin 1024) : ℕ → Fin 256 → ℝ :=
  fun j k => (fun kk : Fin 4096 => v b kk d) (blockIdx j k)

/-- What query block i's output and scratch hold once J key blocks are in: (output, maximum, sum of weights). -/
def Acc (i J : ℕ) (p : (FVec Ideal S4x256x1024 .f32 × FVec Ideal S4x256x1 .f32 × FVec Ideal S4x256x1 .f32)) : Prop :=
  ∀ (b : Fin 4) (r : Fin 256), ∃ μ : ℝ,
    p.2.1 (ix3 b r (0 : Fin 1)) = ((μ : ℝ) : EReal)
    ∧ p.2.2 (ix3 b r (0 : Fin 1)) = ((part (sOf q v i b r) (fun _ _ => 1) μ J : ℝ) : EReal)
    ∧ ∀ d : Fin 1024, p.1 (ix3 b r d) = ((part (sOf q v i b r) (wOf v b d) μ J : ℝ) : EReal)

/-- Query block i's output block holds attention. -/
def Done (i : ℕ) (p : (FVec Ideal S4x256x1024 .f32 × FVec Ideal S4x256x1 .f32 × FVec Ideal S4x256x1 .f32)) : Prop :=
  ∀ (b : Fin 4) (r : Fin 256) (d : Fin 1024), p.1 (ix3 b r d) = ((attn q v b (blockIdx i r) d : ℝ) : EReal)

variable (hq : ∀ (c : Dev nD) b r d, m ((c : Thread nD τ).loc main_arg0) (ix3 b r d) = ((q b r d : ℝ) : EReal))
variable (hv : ∀ (c : Dev nD) b r d, m ((c : Thread nD τ).loc main_arg1) (ix3 b r d) = ((v b r d : ℝ) : EReal))

/-- The query block at point t, at its literal type. -/
abbrev qblk (c : Dev nD) (t : Fin cfg0.N) : FVec Ideal S4x256x1024 .f32 := iblk m c 0 t
/-- The key/value block at point t, at its literal type. -/
abbrev kvblk (c : Dev nD) (t : Fin cfg0.N) : FVec Ideal S4x256x1024 .f32 := iblk m c 1 t

include hq in
theorem qblk_real (c : Dev nD) (t : Fin cfg0.N) (b : Fin 4) (r : Fin 256) (e : Fin 1024) :
    qblk m c t (ix3 b r e) = ((q b (blockIdx (t.val / 16) r) e : ℝ) : EReal) :=
  (qblk_apply m c t b r e).trans (hq c b (blockIdx (t.val / 16) r) e)

include hv in
theorem kvblk_real (c : Dev nD) (t : Fin cfg0.N) (b : Fin 4) (k : Fin 256) (e : Fin 1024) :
    kvblk m c t (ix3 b k e) = ((v b (blockIdx (t.val % 16) k) e : ℝ) : EReal) :=
  (kvblk_apply m c t b k e).trans (hv c b (blockIdx (t.val % 16) k) e)

include hq hv in
/-- At point t the block's scores are the real scores of query block t / 16 against key block t % 16. -/
theorem scores_real (c : Dev nD) (t : Fin cfg0.N) (b : Fin 4) (r k : Fin 256) :
    k0_pay7 (F := Ideal) (qblk m c t) (kvblk m c t) (ix3 b r k) = ((sOf q v (t.val / 16) b r (t.val % 16) k : ℝ) : EReal) := by
  refine (scores_apply (qblk m c t) (kvblk m c t) b r k).trans ?_
  rw [Finset.sum_congr rfl fun e _ => by rw [qblk_real m q hq c t b r e, kvblk_real m v hv c t b k e]]
  exact sum_coe_mul_coe _ _ _

include hv in
/-- At point t the value block's entries are the real values of key block t % 16. -/
theorem values_real (c : Dev nD) (t : Fin cfg0.N) (b : Fin 4) (k : Fin 256) (d : Fin 1024) :
    kvblk m c t (ix3 b k d) = ((wOf v b d (t.val % 16) k : ℝ) : EReal) :=
  kvblk_real m v hv c t b k d

include hq hv in
/-- One point's step takes the accumulation over t % 16 key blocks to the accumulation over one more. -/
theorem acc_step (c : Dev nD) (t : Fin cfg0.N) (p : (FVec Ideal S4x256x1024 .f32 × FVec Ideal S4x256x1 .f32 × FVec Ideal S4x256x1 .f32)) (hp : Acc q v (t.val / 16) (t.val % 16) p) :
    Acc q v (t.val / 16) (t.val % 16 + 1)
      (stepO (F := Ideal) (qblk m c t) (kvblk m c t) p.1 p.2.1, stepM (F := Ideal) (qblk m c t) (kvblk m c t) p.2.1,
        stepL (F := Ideal) (qblk m c t) (kvblk m c t) p.2.1 p.2.2) := by
  intro b r
  obtain ⟨μ, hm, hl, ho⟩ := hp b r
  exact step_values (qblk m c t) (kvblk m c t) p.1 p.2.1 p.2.2 b r (sOf q v (t.val / 16) b r) (fun d => wOf v b d) (t.val % 16) μ
    (fun k => scores_real m q v hq hv c t b r k) (fun k d => values_real m v hv c t b k d) hm hl ho

/-! ## What the three kinds of point leave, as steps of the blocks -/

/-- A first key block's point: one step from the reset values. -/
theorem outs_first (c : Dev nD) (t : Fin cfg0.N) (h0 : t.val % 16 = 0) (h1 : ¬t.val % 16 = 15) :
    outsAt0 m c t.val t.isLt
      = (stepO (F := Ideal) (qblk m c t) (kvblk m c t) (k0_pay6 (F := Ideal)) (k0_pay4 (F := Ideal)),
          stepM (F := Ideal) (qblk m c t) (kvblk m c t) (k0_pay4 (F := Ideal)),
          stepL (F := Ideal) (qblk m c t) (kvblk m c t) (k0_pay4 (F := Ideal)) (k0_pay5 (F := Ideal))) := by
  rw [outsAt0_A m c t h0 h1,
    out_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    max_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    sum_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)]

/-- A middle key block's point: one step from what the point before left. -/
theorem outs_mid (c : Dev nD) (t : Fin cfg0.N) (h0 : ¬t.val % 16 = 0) (h1 : ¬t.val % 16 = 15) :
    outsAt0 m c t.val t.isLt
      = (stepO (F := Ideal) (qblk m c t) (kvblk m c t) (outsAt0 m c (t.val - 1) (Nat.lt_of_le_of_lt (Nat.sub_le _ _) t.isLt)).1 (outsAt0 m c (t.val - 1) (Nat.lt_of_le_of_lt (Nat.sub_le _ _) t.isLt)).2.1,
          stepM (F := Ideal) (qblk m c t) (kvblk m c t) (outsAt0 m c (t.val - 1) (Nat.lt_of_le_of_lt (Nat.sub_le _ _) t.isLt)).2.1,
          stepL (F := Ideal) (qblk m c t) (kvblk m c t) (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_B m c t h0 h1,
    out_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    max_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    sum_mid (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]

/-- A last key block's point: one step from what the point before left, then the division. -/
theorem outs_last (c : Dev nD) (t : Fin cfg0.N) (h0 : ¬t.val % 16 = 0) (h1 : t.val % 16 = 15) :
    outsAt0 m c t.val t.isLt
      = (lastO (F := Ideal) (qblk m c t) (kvblk m c t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
          stepM (F := Ideal) (qblk m c t) (kvblk m c t) (outsAt0 m c (t.val - 1) (Nat.lt_of_le_of_lt (Nat.sub_le _ _) t.isLt)).2.1,
          stepL (F := Ideal) (qblk m c t) (kvblk m c t) (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_C m c t h0 h1,
    out_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    max_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    sum_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]

/-- The reset values are the accumulation over no key block. -/
theorem acc_reset (i : ℕ) : Acc q v i 0 ((k0_pay6 (F := Ideal)), (k0_pay4 (F := Ideal)), (k0_pay5 (F := Ideal))) := by
  intro b r
  exact reset_values b r (sOf q v i b r) (fun d => wOf v b d)

/-- With all 16 key blocks in, the output over the sum of weights is attention. -/
theorem done_of_acc (i : ℕ) (x0 x1 : FVec Ideal S4x256x1024 .f32) (p : (FVec Ideal S4x256x1024 .f32 × FVec Ideal S4x256x1 .f32 × FVec Ideal S4x256x1 .f32)) (s0 : FVec Ideal S4x256x1 .f32)
    (hp : Acc q v i 16 (stepO (F := Ideal) x0 x1 p.1 p.2.1, s0, stepL (F := Ideal) x0 x1 p.2.1 p.2.2)) :
    Done q v i (lastO (F := Ideal) x0 x1 p.1 p.2.1 p.2.2, s0, stepL (F := Ideal) x0 x1 p.2.1 p.2.2) := by
  intro b r d
  obtain ⟨μ, _, hl, ho⟩ := hp b r
  show lastO (F := Ideal) x0 x1 p.1 p.2.1 p.2.2 (ix3 b r d) = _
  rw [last_value]
  have hl' : stepL (F := Ideal) x0 x1 p.2.1 p.2.2 (ix3 b r (0 : Fin 1)) = _ := hl
  have ho' : stepO (F := Ideal) x0 x1 p.1 p.2.1 (ix3 b r d) = _ := ho d
  rw [hl', ho']
  exact div_coe_part (fun kk : Fin 4096 => score q v b (blockIdx i r) kk) (fun kk : Fin 4096 => v b kk d) μ

include hq hv in
/-- The step at the point numbered n, with the query block index and the number of key blocks already in named. -/
theorem acc_step_at (c : Dev nD) (n : ℕ) (h : n < cfg0.N) (i J : ℕ) (hi : n / 16 = i) (hJ : n % 16 = J)
    (p : (FVec Ideal S4x256x1024 .f32 × FVec Ideal S4x256x1 .f32 × FVec Ideal S4x256x1 .f32)) (hp : Acc q v i J p) :
    Acc q v i (J + 1)
      (stepO (F := Ideal) (qblk m c ⟨n, h⟩) (kvblk m c ⟨n, h⟩) p.1 p.2.1, stepM (F := Ideal) (qblk m c ⟨n, h⟩) (kvblk m c ⟨n, h⟩) p.2.1,
        stepL (F := Ideal) (qblk m c ⟨n, h⟩) (kvblk m c ⟨n, h⟩) p.2.1 p.2.2) := by
  subst hi; subst hJ
  exact acc_step m q v hq hv c ⟨n, h⟩ p hp

include hq hv in
/-- After every point: the accumulation over the key blocks seen so far, and at a query block's last point attention. -/
theorem outs_inv (c : Dev nD) (n : ℕ) : ∀ (h : n < cfg0.N),
    (¬n % 16 = 15 → Acc q v (n / 16) (n % 16 + 1) (outsAt0 m c n h)) ∧ (n % 16 = 15 → Done q v (n / 16) (outsAt0 m c n h)) := by
  induction n using Nat.strong_induction_on with
  | _ n ih =>
    intro h
    have hN : n < 256 := lt_of_lt_of_eq h (show cfg0.N = 256 from N_0)
    by_cases h0 : n % 16 = 0
    · have h1 : ¬n % 16 = 15 := by omega
      refine ⟨fun _ => ?_, fun h15 => absurd h15 h1⟩
      have e : outsAt0 m c n h = _ := outs_first m c ⟨n, h⟩ h0 h1
      rw [e]
      have hr : Acc q v (n / 16) (n % 16) ((k0_pay6 (F := Ideal)), (k0_pay4 (F := Ideal)), (k0_pay5 (F := Ideal))) := by
        rw [h0]; exact acc_reset q v (n / 16)
      exact acc_step_at m q v hq hv c n h (n / 16) (n % 16) rfl rfl
        ((k0_pay6 (F := Ideal)), (k0_pay4 (F := Ideal)), (k0_pay5 (F := Ideal))) hr
    · have hlt : n - 1 < cfg0.N := Nat.lt_of_le_of_lt (Nat.sub_le _ _) h
      have hp := (ih (n - 1) (by omega) hlt).1 (by omega)
      rw [show (n - 1) / 16 = n / 16 by omega, show (n - 1) % 16 + 1 = n % 16 by omega] at hp
      have hs := acc_step_at m q v hq hv c n h (n / 16) (n % 16) rfl rfl (outsAt0 m c (n - 1) hlt) hp
      by_cases h1 : n % 16 = 15
      · refine ⟨fun hn => absurd h1 hn, fun _ => ?_⟩
        have e : outsAt0 m c n h = _ := outs_last m c ⟨n, h⟩ h0 h1
        rw [e]
        rw [show n % 16 + 1 = 16 by omega] at hs
        exact done_of_acc q v (n / 16) (qblk m c ⟨n, h⟩) (kvblk m c ⟨n, h⟩) (outsAt0 m c (n - 1) hlt) _ hs
      · refine ⟨fun _ => ?_, fun h15 => absurd h15 h1⟩
        have e : outsAt0 m c n h = _ := outs_mid m c ⟨n, h⟩ h0 h1
        rw [e]
        exact hs

end Cert.Attention.Kernel

end
-- ==== Proof.KernelFinal.lean ====
/-
  From blocks to the array. The output window keeps one block per query block i while the 16 key blocks pass and
  writes it back once, after point (i, 15), when it holds attention for rows 256 i .. 256 i + 255. The 16 write-backs
  tile the result array (row r of the array lies in block r / 256), so after the run the whole array holds attention
  of the real inputs.
-/
import proofs.«403870_j42253888258616_3_alg».proof.Proof.KernelInv
import proofs.«403870_j42253888258616_3_alg».proof.Proof.Gen.KernelIdeal.Value

noncomputable section

open Idealize.ShloMosaic Idealize.ShloMosaic.TcCoe Idealize.ShloMosaic.ValueIdx Idealize.SL.Sem
open Idealize.ShloMosaic.Pipeline (Dat)

namespace Cert.Attention.Kernel

open Cert.KernelIdeal Cert.KernelIdeal.Gen Cert.Attention

variable (m : (ℓ : Loc nD τ sig) → Buf (Elt Ideal) ℓ) (ρ : Dev nD → PrngReg)
variable (q v : Fin 4 → Fin 4096 → Fin 1024 → ℝ)

/-- Attention of the real inputs, as the contents of a [4, 4096, 1024] array. -/
def result : S4x4096x1024.Idx → Elt Ideal .f32 := fun i =>
  ((attn q v ⟨(i 0).val, (i 0).isLt⟩ ⟨(i 1).val, (i 1).isLt⟩ ⟨(i 2).val, (i 2).isLt⟩ : ℝ) : EReal)

theorem result_apply (b : Fin 4) (r : Fin 4096) (d : Fin 1024) :
    result q v (ix3 b r d) = ((attn q v b r d : ℝ) : EReal) := rfl

variable (hq : ∀ (c : Dev nD) b r d, m ((c : Thread nD τ).loc main_arg0) (ix3 b r d) = ((q b r d : ℝ) : EReal))
variable (hv : ∀ (c : Dev nD) b r d, m ((c : Thread nD τ).loc main_arg1) (ix3 b r d) = ((v b r d : ℝ) : EReal))

include hq hv in
/-- A write-back happens after a query block's last key block, and writes that block of attention. -/
theorem flushed_eq (c : Dev nD) (t : Fin cfg0.N) (hf : (cfg0.win 2).flush t = true) :
    (dats m 0 c).flushed 2 t = ((cfg0.win 2).blk t).view.read (Elt Ideal) (result q v) := by
  have h15 : t.val % 16 = 15 := (flush0_2 t).mp hf
  have hN : t.val < 256 := lt_of_lt_of_eq t.isLt (show cfg0.N = 256 from N_0)
  obtain ⟨i0, i1, i2⟩ := o_index t
  have hd := (outs_inv m q v hq hv c t.val t.isLt).2 h15
  show (cfg0.win 2).cut (grid0.coords t) ((dats m 0 c).after 2 t) = _
  rw [after0_2]
  refine funext fun (j : S4x256x1024.Idx) => ?_
  obtain ⟨b, r, d, rfl⟩ : ∃ (b : Fin 4) (r : Fin 256) (d : Fin 1024), j = ix3 b r d := ⟨j 0, j 1, j 2, eq_ix3 j⟩
  show (outsAt0 m c t.val t.isLt).1 (ix3 b r d) = result q v (((cfg0.win 2).blk t).view.emb (ix3 b r d))
  rw [hd b r d]
  have he : ((cfg0.win 2).blk t).view.emb (ix3 b r d) = ix3 b (blockIdx (t.val / 16) r) d := by
    funext a; apply Fin.ext
    match a with
    | ⟨0, _⟩ => show win0_2.index t 0 * 4 + 1 * b.val = b.val; rw [i0]; omega
    | ⟨1, _⟩ =>
      show win0_2.index t 1 * 256 + 1 * r.val = (blockIdx (t.val / 16) r).val
      rw [i1, blockIdx_val (by omega)]; omega
    | ⟨2, _⟩ => show win0_2.index t 2 * 1024 + 1 * d.val = d.val; rw [i2]; omega
  rw [he]
  rfl

/-- Every index of the result array lies in the block written back after point (row / 256, 15). -/
theorem covered (i : S4x4096x1024.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1024 := (i 2).isLt
  have hlt : (i 1).val / 256 * 16 + 15 < cfg0.N := by rw [show cfg0.N = 256 from N_0]; omega
  refine ⟨⟨(i 1).val / 256 * 16 + 15, hlt⟩, (flush0_2 _).mpr (by show ((i 1).val / 256 * 16 + 15) % 16 = 15; omega), ?_⟩
  obtain ⟨i0, i1, i2⟩ := o_index ⟨(i 1).val / 256 * 16 + 15, hlt⟩
  have i1' : win0_2.index ⟨(i 1).val / 256 * 16 + 15, hlt⟩ 1 = ((i 1).val / 256 * 16 + 15) / 16 := i1
  show i ∈ ((View.whole main_v0).slice (win0_2.rect ⟨(i 1).val / 256 * 16 + 15, hlt⟩)).set
  rw [View.set_slice_whole, Rect.mem_set_unit]
  intro a
  match a with
  | ⟨0, _⟩ =>
    show win0_2.index ⟨(i 1).val / 256 * 16 + 15, hlt⟩ 0 * 4 ≤ (i 0).val ∧ (i 0).val < win0_2.index ⟨(i 1).val / 256 * 16 + 15, hlt⟩ 0 * 4 + 4
    rw [i0]; omega
  | ⟨1, _⟩ =>
    show win0_2.index ⟨(i 1).val / 256 * 16 + 15, hlt⟩ 1 * 256 ≤ (i 1).val ∧ (i 1).val < win0_2.index ⟨(i 1).val / 256 * 16 + 15, hlt⟩ 1 * 256 + 256
    rw [i1']; omega
  | ⟨2, _⟩ =>
    show win0_2.index ⟨(i 1).val / 256 * 16 + 15, hlt⟩ 2 * 1024 ≤ (i 2).val ∧ (i 2).val < win0_2.index ⟨(i 1).val / 256 * 16 + 15, hlt⟩ 2 * 1024 + 1024
    rw [i2]; omega

include hq hv in
/-- After the run the result array holds attention of the real inputs. -/
theorem final (c : Dev nD) : (dats m 0 c).arrAt 2 cfg0.N = result q v :=
  (dats m 0 c).arrAt_eq_of_cover 2 (result q v) (flushed_eq m q v hq hv c) covered

include hq hv in
/-- The kernel's run, read: the result array at attention of the real inputs, the arguments unchanged. -/
theorem run : θ_run defs (onTc (τ := τ) (main (F := Ideal))) ⟨m, fun _ => 0, ρ⟩ fun r => ∀ c : Dev nD,
      r.2.mem ((c : Thread nD τ).loc main_v0) = result q v
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m q v hq hv c), (h c).2⟩)
    (Cert.KernelIdeal.Value.run_blocks m ρ)

end Cert.Attention.Kernel

end
-- ==== Proof.RefValue.lean ====
/-
  The reference, read at an index. It forms every score, subtracts each query row's maximum score, exponentiates,
  divides by the row's sum of exponentials and multiplies into the values. On real inputs the row maximum is a real
  number (there are 4096 keys), and the quotient does not depend on which real is subtracted: the result at (b, r, d)
  is attention's unshifted quotient.
-/
import proofs.«403870_j42253888258616_3_alg».proof.Proof.Gen.ReferenceIdeal.Read
import proofs.«403870_j42253888258616_3_alg».proof.Proof.SoftmaxAlgebra
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.Attention.Reference

open Cert.ReferenceIdeal Cert.ReferenceIdeal.Read Cert.Attention

/-- The pattern of negative infinity denotes the bottom of the extended reals. -/
private theorem ofBits_negInf_f32 : Ideal.ofBits .f32 0xFF800000#32 = (⊥ : EReal) := by
  simp [Ideal.ofBits, Ideal.ieee]

/-- A score array element is the real score: the inner product of query row r and key row k. -/
private theorem v0_read (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r k : Fin 4096) :
    val_main_v0 (F := Ideal) x0 x1 (ix3 b r k) = ((score q v b r k : ℝ) : EReal) := by
  rw [val_main_v0_apply]
  have hl : ∀ e : Fin 1024, lidx_main_v0 (ix3 b r k) e = ix3 b r e := fun e => funext fun a => Fin.ext (by
    match a with | ⟨0, _⟩ => rfl | ⟨1, _⟩ => rfl | ⟨2, _⟩ => rfl)
  have hr : ∀ e : Fin 1024, ridx_main_v0 (ix3 b r k) e = ix3 b k e := fun e => funext fun a => Fin.ext (by
    match a with | ⟨0, _⟩ => rfl | ⟨1, _⟩ => rfl | ⟨2, _⟩ => rfl)
  simp only [hl, hr, h0, h1]
  exact sum_coe_mul_coe _ _ _

/-- A row's maximum, from negative infinity over the 4096 keys, is the running maximum from bottom of its real scores. -/
private theorem v1_read (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r : Fin 4096) :
    val_main_v1 (F := Ideal) x0 x1 (ix2 b r)
      = (Finset.univ : Finset (Fin 4096)).fold max (⊥ : EReal) (fun k => ((score q v b r k : ℝ) : EReal)) := by
  have h : S4x4096x4096.Reduces [2] S4x4096 := by decide
  unfold val_main_v1
  have e := Host.reduce_eq_fold_single (FloatOps.maximumf (F := Ideal) (φ := .f32)) (val_main_v0 (F := Ideal) x0 x1)
    (val_main_cst (F := Ideal)) Gen.reducesTo_S4x4096x4096_S4x4096_d2 h Gen.h_S_ (ix2 b r)
  rw [e, val_main_cst_apply]
  show (Finset.univ : Finset (Fin 4096)).fold max (Ideal.ofBits .f32 0xFF800000#32) _ = _
  rw [ofBits_negInf_f32]
  refine congrArg (fun f => Finset.fold max (⊥ : EReal) f (Finset.univ : Finset (Fin 4096))) ?_
  refine funext fun (k : Fin 4096) => ?_
  have hk : h.lift (ix2 b r) k = ix3 b r k := funext fun a => Fin.ext (by
    match a with | ⟨0, _⟩ => rfl | ⟨1, _⟩ => rfl | ⟨2, _⟩ => rfl)
  show val_main_v0 (F := Ideal) x0 x1 (h.lift (ix2 b r) k) = _
  rw [hk]
  exact v0_read q v x0 x1 h0 h1 b r k

/-- The subtracted number at (b, r): the greater of negative infinity and the row's maximum; it is a real number. -/
private theorem v3_read (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r : Fin 4096) :
    ∃ M : ℝ, val_main_v3 (F := Ideal) x0 x1 (ix2 b r) = (M : EReal) := by
  obtain ⟨M, hM⟩ := exists_real_fold (Finset.univ : Finset (Fin 4096)) Finset.univ_nonempty (fun k => score q v b r k)
  refine ⟨M, ?_⟩
  rw [val_main_v3_apply, val_main_v2_apply, val_main_cst_0_apply, v1_read q v x0 x1 h0 h1 b r, hM, Ideal.maximumf_def]
  show max (Ideal.ofBits .f32 0xFF800000#32) (M : EReal) = (M : EReal)
  rw [ofBits_negInf_f32]
  exact max_eq_right bot_le

/-- The broadcast of the subtracted number along the keys reads it back at (b, r). -/
private theorem v5_read (x0 x1 : (⟨S4x4096x1024, .f32⟩ : BufTy).Contents (Elt Ideal)) (b : Fin 4) (r k : Fin 4096) :
    val_main_v5 (F := Ideal) x0 x1 (ix3 b r k) = val_main_v3 (F := Ideal) x0 x1 (ix2 b r) := by
  rw [val_main_v5_apply, val_main_v4_apply]
  exact congrArg (val_main_v3 (F := Ideal) x0 x1) (funext fun a => Fin.ext (by
    match a with | ⟨0, _⟩ => rfl | ⟨1, _⟩ => rfl))

/-- A weight: the exponential of the score less the subtracted number. -/
private theorem v7_read (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r : Fin 4096) (M : ℝ) (hM : val_main_v3 (F := Ideal) x0 x1 (ix2 b r) = (M : EReal)) (k : Fin 4096) :
    val_main_v7 (F := Ideal) x0 x1 (ix3 b r k) = Ideal.exp (((score q v b r k : ℝ) : EReal) - (M : EReal)) := by
  rw [val_main_v7_apply, val_main_v6_apply, v0_read q v x0 x1 h0 h1 b r k, v5_read x0 x1 b r k, hM,
    Ideal.hostUnary_exp_def, Ideal.subf_def]

/-- The divisor along row (b, r): zero plus the sum of the row's 4096 weights. -/
private theorem v10_read (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r : Fin 4096) (M : ℝ) (hM : val_main_v3 (F := Ideal) x0 x1 (ix2 b r) = (M : EReal)) (k : Fin 4096) :
    val_main_v10 (F := Ideal) x0 x1 (ix3 b r k)
      = (0 : EReal) + ∑ j : Fin 4096, Ideal.exp (((score q v b r j : ℝ) : EReal) - (M : EReal)) := by
  rw [val_main_v10_apply, val_main_v9_apply]
  have hi : idx_main_v9 (idx_main_v10 (ix3 b r k)) = ix2 b r := funext fun a => Fin.ext (by
    match a with | ⟨0, _⟩ => rfl | ⟨1, _⟩ => rfl)
  rw [hi, val_main_v8_apply, val_main_cst_1_apply]
  have hz : (FloatOps.ofBits .f32 0x00000000#32 : Ideal .f32) = (0 : EReal) := Ideal.ofBits_zero_f32
  rw [hz]
  refine congrArg ((0 : EReal) + ·) (Finset.sum_congr rfl fun j _ => ?_)
  have hj : idx_main_v8 (ix2 b r) j = ix3 b r j := funext fun a => Fin.ext (by
    match a with | ⟨0, _⟩ => rfl | ⟨1, _⟩ => rfl | ⟨2, _⟩ => rfl)
  rw [hj]
  exact v7_read q v x0 x1 h0 h1 b r M hM j

/-- On arrays holding real numbers the reference's result array holds attention of them. -/
theorem value (q v : Fin 4 → Fin 4096 → Fin 1024 → ℝ)
    (x0 x1 : (⟨S4x4096x1024, .f32⟩ : BufTy).Contents (Elt Ideal))
    (h0 : ∀ b r d, x0 (ix3 b r d) = ((q b r d : ℝ) : EReal))
    (h1 : ∀ b r d, x1 (ix3 b r d) = ((v b r d : ℝ) : EReal))
    (b : Fin 4) (r : Fin 4096) (d : Fin 1024) :
    val_main_v12 (F := Ideal) x0 x1 (ix3 b r d) = ((attn q v b r d : ℝ) : EReal) := by
  obtain ⟨M, hM⟩ := v3_read q v x0 x1 h0 h1 b r
  rw [val_main_v12_apply]
  have hl : ∀ k : Fin 4096, lidx_main_v12 (ix3 b r d) k = ix3 b r k := fun k => funext fun a => Fin.ext (by
    match a with | ⟨0, _⟩ => rfl | ⟨1, _⟩ => rfl | ⟨2, _⟩ => rfl)
  have hr : ∀ k : Fin 4096, ridx_main_v12 (ix3 b r d) k = ix3 b k d := fun k => funext fun a => Fin.ext (by
    match a with | ⟨0, _⟩ => rfl | ⟨1, _⟩ => rfl | ⟨2, _⟩ => rfl)
  have ht : ∀ k : Fin 4096,
      val_main_v11 (F := Ideal) x0 x1 (lidx_main_v12 (ix3 b r d) k) * x1 (ridx_main_v12 (ix3 b r d) k)
        = Ideal.div (Ideal.exp (((score q v b r k : ℝ) : EReal) - (M : EReal)))
            ((0 : EReal) + ∑ j : Fin 4096, Ideal.exp (((score q v b r j : ℝ) : EReal) - (M : EReal)))
          * ((v b k d : ℝ) : EReal) := fun k => by
    rw [hl k, hr k, h1 b k d, val_main_v11_apply, v7_read q v x0 x1 h0 h1 b r M hM k,
      v10_read q v x0 x1 h0 h1 b r M hM k, Ideal.hostDivf_def]
  rw [Finset.sum_congr rfl fun k _ => ht k]
  unfold attn
  exact softmax_dot_coe (fun k => score q v b r k) (fun k => v b k d) M

end Cert.Attention.Reference

end
-- ==== Proof.FiniteInputs.lean ====
/-
  The precondition read back: both argument arrays hold finite numbers, so each is the coercion of a real-valued
  array. (The algebra joining the two programs distributes products over sums and cancels a common factor, which
  fails at the infinities; this is where the precondition is used.)
-/
import proofs.«403870_j42253888258616_3_alg».proof.Defs
import proofs.«403870_j42253888258616_3_alg».proof.Proof.Gen.Pre_finite_inputs
import proofs.«403870_j42253888258616_3_alg».proof.Proof.Gen.KernelIdeal
import Idealize.ShloMosaic.Lib.ValueIdx
import Idealize.ShloMosaic.Lib.ReduceAll
import Idealize.ShloMosaic.Lib.Affine
import Idealize.ShloMosaic.Lib.Pipeline.Value

noncomputable section

open Idealize.ShloMosaic Idealize.ShloMosaic.ValueIdx Idealize.SL.Sem

namespace Cert.Attention.Finite

/-- An extended real whose absolute value, the larger of itself and its negation, lies below the top element is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- The single-precision pattern with all exponent bits set and no fraction bit is the top element. -/
private theorem ofBits_inf : Ideal.ofBits .f32 0x7F800000#32 = (⊤ : EReal) := by
  simp [Ideal.ofBits, Ideal.ieee]

open Cert.Pre_finite_inputs in
/-- One element of the comparison of the absolute values with the broadcast infinity being one says the element is real. -/
private theorem real_of_cmp (x : FVec Ideal S4x4096x1024 .f32) (i : S4x4096x1024.Idx)
    (h : cmpf .olt (Host.absf x)
      (broadcastInDim S4x4096x1024 ![] Cert.Pre_finite_inputs.Gen.facts.bcast_S_S4x4096x1024
        (constant (F := Ideal) S_ .f32 0x7F800000#32)) i = 1#1) :
    ∃ r : ℝ, x i = (r : EReal) := by
  rw [show broadcastInDim S4x4096x1024 ![] Cert.Pre_finite_inputs.Gen.facts.bcast_S_S4x4096x1024
        (constant (F := Ideal) S_ .f32 0x7F800000#32) = fun _ => (⊤ : EReal) from ?_] at h
  · refine real_of_abs_lt_top (x i) ?_
    by_contra hn
    have : cmpf .olt (Host.absf x) (fun _ => (⊤ : EReal)) i = 0#1 := by
      show Ideal.cmp .olt (max (x i) (-(x i))) ⊤ = 0#1
      simp [Ideal.cmp, hn]
    rw [this] at h
    exact absurd h (by decide)
  · funext j
    rw [broadcastInDim_apply _ _ _ j ix0 (fun a => a.elim0)]
    exact ofBits_inf

open Cert.Pre_finite_inputs in
/-- The printed predicate being all ones says every element of both arrays is real. -/
private theorem real_of_pre (x y : FVec Ideal S4x4096x1024 .f32)
    (h : @Cert.Pre_finite_inputs.fn Cert.Pre_finite_inputs.Gen.facts Ideal _ x y = (fun _ => 1#1)) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  haveI : Subsingleton S_.Idx := ⟨fun a b => funext fun d => d.elim0⟩
  exact ⟨fun i => real_of_cmp x i (Host.reduce_andi_all _ _ _ _ _ hx i),
    fun i => real_of_cmp y i (Host.reduce_andi_all _ _ _ _ _ hy i)⟩

/-- Under the precondition the idealized kernel's two argument arrays are real-valued. -/
theorem real_inputs
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∃ q v : Fin 4 → Fin 4096 → Fin 1024 → ℝ,
      (∀ b r d, m ((c.tc : Thread Cert.KernelIdeal.nD Cert.KernelIdeal.τ).loc Cert.KernelIdeal.main_arg0) (ix3 b r d) = ((q b r d : ℝ) : EReal))
      ∧ (∀ b r d, m ((c.tc : Thread Cert.KernelIdeal.nD Cert.KernelIdeal.τ).loc Cert.KernelIdeal.main_arg1) (ix3 b r d) = ((v b r d : ℝ) : EReal)) := by
  obtain ⟨hq, hv⟩ := real_of_pre _ _ (h c)
  exact ⟨fun b r d => Classical.choose (hq (ix3 b r d)), fun b r d => Classical.choose (hv (ix3 b r d)),
    fun b r d => Classical.choose_spec (hq (ix3 b r d)), fun b r d => Classical.choose_spec (hv (ix3 b r d))⟩

end Cert.Attention.Finite

end
-- ==== Proof.lean ====
/-
  A blockwise ("flash") attention kernel against softmax attention, over the extended reals.

  Both programs take a query array q and an array v that plays keys and values, f32[4, 4096, 1024], and return
      out (b, r, d) = sum over k of softmax_k (q (b, r, ·) · v (b, k, ·)) * v (b, k, d).
  The reference forms all 4096 scores of a row, subtracts the row's maximum, exponentiates, divides by the sum and
  multiplies into the values. The kernel walks a 16 x 16 grid of (query block, key block) pairs of 256 rows each and
  keeps, per row, a running maximum m, a running sum of weights l and a running output o: a key block with scores s
  gives m' = max m (max s), l' = exp (m - m') l + sum of exp (s - m'), o' = exp (m - m') o + exp (s - m') · v, and
  after the last key block o' / l' is written back. The running maximum starts at a large negative FINITE number and
  a change of float format is the identity at this instance.

  Over the reals both are the same number: whatever real m is subtracted, exp (s_k - m) = exp (-m) exp (s_k), and the
  positive factor exp (-m) cancels between the weighted sum and the sum of weights; the kernel's rescaling by
  exp (m - m') keeps its two running sums at one common shift, so after 16 key blocks their quotient is
  (sum of exp (s_k) v_k) / (sum of exp (s_k)) over all 4096 keys, which is also what the reference computes.
  Cancelling that factor and distributing it over the sums is valid for real numbers, not at the infinities: this is
  where the precondition (every input finite) is used; it makes every score, every maximum and every sum a real number.

  The frames of the two kernel programs are the generated ones; the reference's frame is its generated run. The
  idealization rewrote nothing, so it is preserved trivially. The value claim puts the kernel's run, read through the
  induction over the grid's points, beside the reference's run read operation by operation.
-/
import proofs.«403870_j42253888258616_3_alg».proof.Defs
import proofs.«403870_j42253888258616_3_alg».proof.Proof.Gen.Kernel
import proofs.«403870_j42253888258616_3_alg».proof.Proof.Gen.Kernel.Skeleton
import proofs.«403870_j42253888258616_3_alg».proof.Proof.Gen.Kernel.Launch
import proofs.«403870_j42253888258616_3_alg».proof.Proof.Gen.Kernel.Points
import proofs.«403870_j42253888258616_3_alg».proof.Proof.Gen.Kernel.Frame
import proofs.«403870_j42253888258616_3_alg».proof.Proof.Gen.KernelIdeal
import proofs.«403870_j42253888258616_3_alg».proof.Proof.Gen.KernelIdeal.Skeleton
import proofs.«403870_j42253888258616_3_alg».proof.Proof.Gen.KernelIdeal.Launch
import proofs.«403870_j42253888258616_3_alg».proof.Proof.Gen.KernelIdeal.Points
import proofs.«403870_j42253888258616_3_alg».proof.Proof.Gen.KernelIdeal.Frame
import proofs.«403870_j42253888258616_3_alg».proof.Proof.Gen.ReferenceIdeal
import proofs.«403870_j42253888258616_3_alg».proof.Proof.Gen.Pre_finite_inputs
import proofs.«403870_j42253888258616_3_alg».proof.Proof.Gen.KernelIdeal.Value
import proofs.«403870_j42253888258616_3_alg».proof.Proof.Gen.ReferenceIdeal.Run
import proofs.«403870_j42253888258616_3_alg».proof.Proof.Gen.ReferenceIdeal.Read
import proofs.«403870_j42253888258616_3_alg».proof.Proof.KernelFinal
import proofs.«403870_j42253888258616_3_alg».proof.Proof.RefValue
import proofs.«403870_j42253888258616_3_alg».proof.Proof.FiniteInputs
import Idealize.ShloMosaic.Adequacy
import Idealize.ShloMosaic.Init

noncomputable section

namespace Cert.Proof

open Idealize.ShloMosaic Idealize.ShloMosaic.ValueIdx Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- On finite inputs that agree, both programs end with attention of the inputs' real values in their result arrays. -/
theorem algebraic : Cert.algebraic_KernelIdeal_ReferenceIdeal := by
  intro m ρ m' ρ' hpre hagree
  obtain ⟨q, v, hq0, hv0⟩ := Cert.Attention.Finite.real_inputs m hpre 0
  have hq : ∀ (c : Dev Cert.KernelIdeal.nD) b r d,
      m ((c.tc : Thread Cert.KernelIdeal.nD Cert.KernelIdeal.τ).loc Cert.KernelIdeal.main_arg0) (ix3 b r d) = ((q b r d : ℝ) : EReal) := fun c => by
    obtain rfl : c = 0 := Subsingleton.elim _ _
    exact hq0
  have hv : ∀ (c : Dev Cert.KernelIdeal.nD) b r d,
      m ((c.tc : Thread Cert.KernelIdeal.nD Cert.KernelIdeal.τ).loc Cert.KernelIdeal.main_arg1) (ix3 b r d) = ((v b r d : ℝ) : EReal) := fun c => by
    obtain rfl : c = 0 := Subsingleton.elim _ _
    exact hv0
  refine ⟨fun _ => Cert.Attention.Kernel.result q v, Cert.Attention.Kernel.run m ρ q v hq hv, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  refine funext fun (i : Cert.ReferenceIdeal.S4x4096x1024.Idx) => ?_
  obtain ⟨b, r, d, rfl⟩ : ∃ (b : Fin 4) (r : Fin 4096) (d : Fin 1024), i = ix3 b r d := ⟨i 0, i 1, i 2, eq_ix3 i⟩
  rw [Cert.Attention.Reference.value q v _ _ (hq c) (hv c) b r d]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
